-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128 : Shape := ⟨3, ![16, 128, 128]⟩
abbrev S16x128x128x128 : Shape := ⟨4, ![16, 128, 128, 128]⟩
abbrev S128x384 : Shape := ⟨2, ![128, 384]⟩
abbrev S128 : Shape := ⟨1, ![128]⟩
abbrev S128x256 : Shape := ⟨2, ![128, 256]⟩
abbrev S_ : Shape := ⟨0, ![]⟩

class Facts : Prop where
  bcast_S_S16x128x128 : S_.BroadcastsInDim S16x128x128 (![] : Fin 0 → Fin S16x128x128.rank)
  reducesTo_S16x128x128_S_d0_1_2 : S16x128x128.ReducesTo [0, 1, 2] S_
  h_S_ : 0 < S_.numel
  bcast_S_S16x128x128x128 : S_.BroadcastsInDim S16x128x128x128 (![] : Fin 0 → Fin S16x128x128x128.rank)
  reducesTo_S16x128x128x128_S_d0_1_2_3 : S16x128x128x128.ReducesTo [0, 1, 2, 3] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg4 : FVec F S128 .f32) (main_arg5 : FVec F S128x256 .f32) (main_arg6 : FVec F S128 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S16x128x128 .f32) (main_arg1 : FVec F S16x128x128 .f32) (main_arg2 : FVec F S16x128x128x128 .f32) (main_arg3 : FVec F S128x384 .f32) (main_arg4 : FVec F S128 .f32) (main_arg5 : FVec F S128x256 .f32) (main_arg6 : FVec F S128 .f32) : IVec S_ 1 :=
  let main_v0 : FVec F S16x128x128 .f32 := Host.absf main_arg0
  let main_cst : FVec F S_ .f32 := constant S_ .f32 0x7F800000#32
  let main_v1 : FVec F S16x128x128 .f32 := broadcastInDim S16x128x128 ![] bcast_S_S16x128x128 main_cst
  let main_v2 : IVec S16x128x128 1 := cmpf .olt main_v0 main_v1
  let main_c : IVec S_ 1 := constantI S_ 1 1#1
  let main_v3 : IVec S_ 1 := (fun x v => Host.reduce IntOp.andi x v reducesTo_S16x128x128_S_d0_1_2 h_S_) main_v2 main_c
  let main_v4 : FVec F S16x128x128 .f32 := Host.absf main_arg1
  let main_cst_0 : FVec F S_ .f32 := constant S_ .f32 0x7F800000#32
  let main_v5 : FVec F S16x128x128 .f32 := broadcastInDim S16x128x128 ![] bcast_S_S16x128x128 main_cst_0
  let main_v6 : IVec S16x128x128 1 := cmpf .olt main_v4 main_v5
  let main_c_1 : IVec S_ 1 := constantI S_ 1 1#1
  let main_v7 : IVec S_ 1 := (fun x v => Host.reduce IntOp.andi x v reducesTo_S16x128x128_S_d0_1_2 h_S_) main_v6 main_c_1
  let main_v8 : IVec S_ 1 := andi main_v3 main_v7
  let main_v9 : FVec F S16x128x128x128 .f32 := Host.absf main_arg2
  let main_cst_2 : FVec F S_ .f32 := constant S_ .f32 0x7F800000#32
  let main_v10 : FVec F S16x128x128x128 .f32 := broadcastInDim S16x128x128x128 ![] bcast_S_S16x128x128x128 main_cst_2
  let main_v11 : IVec S16x128x128x128 1 := cmpf .olt main_v9 main_v10
  let main_c_3 : IVec S_ 1 := constantI S_ 1 1#1
  let main_v12 : IVec S_ 1 := (fun x v => Host.reduce IntOp.andi x v reducesTo_S16x128x128x128_S_d0_1_2_3 h_S_) main_v11 main_c_3
  let main_v13 : IVec S_ 1 := andi main_v8 main_v12
  let main_v14 : FVec F S128x384 .f32 := Host.absf main_arg3
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg4 main_arg5 main_arg6 main_v13 main_v16
-- ==== Kernel.lean ====
abbrev S16x128x128 : Shape := ⟨3, ![16, 128, 128]⟩
abbrev S16x128x128x128 : Shape := ⟨4, ![16, 128, 128, 128]⟩
abbrev S128x384 : Shape := ⟨2, ![128, 384]⟩
abbrev S128 : Shape := ⟨1, ![128]⟩
abbrev S128x256 : Shape := ⟨2, ![128, 256]⟩
abbrev S384x128 : Shape := ⟨2, ![384, 128]⟩
abbrev S256x128 : Shape := ⟨2, ![256, 128]⟩
abbrev S1x128x128x128 : Shape := ⟨4, ![1, 128, 128, 128]⟩
abbrev S1x128x128 : Shape := ⟨3, ![1, 128, 128]⟩
abbrev S128x128 : Shape := ⟨2, ![128, 128]⟩
abbrev S1x16x128x128 : Shape := ⟨4, ![1, 16, 128, 128]⟩
abbrev S2048x128 : Shape := ⟨2, ![2048, 128]⟩
abbrev S1x16x128 : Shape := ⟨3, ![1, 16, 128]⟩
abbrev S16x128 : Shape := ⟨2, ![16, 128]⟩
abbrev S16x1x128 : Shape := ⟨3, ![16, 1, 128]⟩
abbrev S1x1x128 : Shape := ⟨3, ![1, 1, 128]⟩
abbrev S16x128x1 : Shape := ⟨3, ![16, 128, 1]⟩
abbrev S1x128 : Shape := ⟨2, ![1, 128]⟩

abbrev nBuf : Space → Nat
  | .hbm => 10
  | .vmem => 12
  | .smem => 0
  | _ => 0

abbrev bufTy : (tb : Table) → Fin (tcTables nBuf tb) → BufTy
  | .hbm, ⟨0, _⟩ => ⟨S16x128x128, .f32⟩
  | .hbm, ⟨1, _⟩ => ⟨S16x128x128, .f32⟩
  | .hbm, ⟨2, _⟩ => ⟨S16x128x128x128, .f32⟩
  | .hbm, ⟨3, _⟩ => ⟨S128x384, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S384x128, .f32⟩
  | .hbm, ⟨8, _⟩ => ⟨S256x128, .f32⟩
  | .hbm, ⟨9, _⟩ => ⟨S16x128x128, .f32⟩
  | .local _ .vmem, ⟨0, _⟩ => ⟨S1x128x128x128, .f32⟩
  | .local _ .vmem, ⟨1, _⟩ => ⟨S1x128x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S384x128, .f32⟩
  | .local _ .vmem, ⟨7, _⟩ => ⟨S128, .f32⟩
  | .local _ .vmem, ⟨8, _⟩ => ⟨S256x128, .f32⟩
  | .local _ .vmem, ⟨9, _⟩ => ⟨S128, .f32⟩
  | .local _ .vmem, ⟨10, _⟩ => ⟨S1x128x128, .f32⟩
  | .local _ .vmem, ⟨11, _⟩ => ⟨S1x128x128, .f32⟩
  | _, _ => ⟨S16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v15 : BitVec 32 := Scalar.addi c0_i32 c8_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32 : BitVec 32 := 16#32
  let v30 : BitVec 32 := Scalar.muli arg9 c16_i32
  v30
def k0_off1 (k0_t1 : Fin k0_t1_loop.trips) : Fin 4 → Nat :=
  let c0_16 : Index := 0#32
  let c0_i32 : BitVec 32 := 0#32
  let c1_i32 : BitVec 32 := 1#32
  let arg9 : BitVec 32 := Scf.iv c0_i32 c1_i32 k0_t1
  let c16_i32 : BitVec 32 := 16#32
  let v30 : BitVec 32 := Scalar.muli arg9 c16_i32
  let v31 : BitVec 32 := v30
  let v32 : Index := Scalar.indexCast v31
  let c0_17 : Index := 0#32
  let c0_18 : Index := 0#32
  ![0, v32.toNat, 0, 0]
def k0_off2 (k0_t1 : Fin k0_t1_loop.trips) : Fin 3 → Nat :=
  let c0_20 : Index := 0#32
  let c0_i32 : BitVec 32 := 0#32
  let c1_i32 : BitVec 32 := 1#32
  let arg9 : BitVec 32 := Scf.iv c0_i32 c1_i32 k0_t1
  let c16_i32 : BitVec 32 := 16#32
  let v30 : BitVec 32 := Scalar.muli arg9 c16_i32
  let v31 : BitVec 32 := v30
  let v39 : Index := Scalar.indexCast v31
  let c0_21 : Index := 0#32
  ![0, v39.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x384_S384x128_1_0 : S128x384.Transposes [1, 0] S384x128
  transposes_S128x256_S256x128_1_0 : S128x256.Transposes [1, 0] S256x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  inb_S384x128_S128x128_0_0 : ∀ a, (![0, 0] : Fin 2 → Nat) a + S128x128.size a ≤ S384x128.size a
  h_S128x128 : 0 < S128x128.numel
  shapeCasts_S128x128_S128x128 : S128x128.ShapeCasts S128x128
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  inb_S128_S128_0 : ∀ a, (![0] : Fin 1 → Nat) a + S128.size a ≤ S128.size a
  h_S128 : 0 < S128.numel
  h_S1x16x128x128 : 0 < S1x16x128x128.numel
  shapeCasts_S1x16x128x128_S16x128x128 : S1x16x128x128.ShapeCasts S16x128x128
  shapeCasts_S16x128x128_S2048x128 : S16x128x128.ShapeCasts S2048x128
  shapeCasts_S2048x128_S16x128x128 : S2048x128.ShapeCasts S16x128x128
  h_S1x16x128 : 0 < S1x16x128.numel
  shapeCasts_S1x16x128_S16x128 : S1x16x128.ShapeCasts S16x128
  shapeCasts_S16x128_S16x1x128 : S16x128.ShapeCasts S16x1x128
  broadcasts_S16x1x128_S16x128x128 : S16x1x128.Broadcasts S16x128x128
  shapeCasts_S128x128_S1x128x128 : S128x128.ShapeCasts S1x128x128
  broadcasts_S1x128x128_S16x128x128 : S1x128x128.Broadcasts S16x128x128
  shapeCasts_S128_S1x1x128 : S128.ShapeCasts S1x1x128
  broadcasts_S1x1x128_S16x128x128 : S1x1x128.Broadcasts S16x128x128
  shapeCasts_S16x128_S16x128x1 : S16x128.ShapeCasts S16x128x1
  broadcasts_S16x128x1_S16x128x128 : S16x128x1.Broadcasts S16x128x128
  reduces_S16x128x128_S128x128 : S16x128x128.Reduces [0] S128x128
  concatenates_S128x128_S128x128_S128x256_d1 : Shape.Concatenates [S128x128, S128x128] S128x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S128_S1x128 : S128.ShapeCasts S1x128
  broadcasts_S1x128_S128x128 : S1x128.Broadcasts S128x128
  dot_S128x128_S128x128_S128x128_1_0_0_1_n_n_wf : DotDims.WF S128x128 S128x128 S128x128 [1] [0] [0] [1] [] []
  dot_S2048x128_S128x128_S2048x128_1_0_0_1_n_n_wf : DotDims.WF S2048x128 S128x128 S2048x128 [1] [0] [0] [1] [] []
  dot_S16x128_S128x128_S16x128_1_0_0_1_n_n_wf : DotDims.WF S16x128 S128x128 S16x128 [1] [0] [0] [1] [] []
  dot_S128x256_S256x128_S128x128_1_0_0_1_n_n_wf : DotDims.WF S128x256 S256x128 S128x128 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S1x16x128x128.size a ≤ S1x128x128x128.size a
  k0_off2_inb : ∀ k0_t1 : Fin k0_t1_loop.trips, ∀ a, (k0_off2 k0_t1) a + S1x16x128.size a ≤ S1x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x128.size a ≤ S16x128x128x128.size a
  hwx0_0 : ∀ i : grid0.Coords, EltTy.bits .f32 = 32 ∨ (Rect.block (s := S16x128x128x128) S1x128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S16x128x128.size a
  hwx0_1 : ∀ i : grid0.Coords, EltTy.bits .f32 = 32 ∨ (Rect.block (s := S16x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S16x128x128.size a
  hwx0_2 : ∀ i : grid0.Coords, EltTy.bits .f32 = 32 ∨ (Rect.block (s := S16x128x128) S1x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x128.size a ≤ S16x128x128.size a
  hwx0_7 : ∀ i : grid0.Coords, EltTy.bits .f32 = 32 ∨ (Rect.block (s := S16x128x128) S1x128x128.size (cc0_transform_7 i) (hinb0_7 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0_0 : Pipeline.Window sig grid0 :=
  Pipeline.Window.ofSpec (Memref.whole main_arg2) S1x128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x128x128 : Shape := ⟨3, ![16, 128, 128]⟩
abbrev S16x128x128x128 : Shape := ⟨4, ![16, 128, 128, 128]⟩
abbrev S128x384 : Shape := ⟨2, ![128, 384]⟩
abbrev S128 : Shape := ⟨1, ![128]⟩
abbrev S128x256 : Shape := ⟨2, ![128, 256]⟩
abbrev S128x128 : Shape := ⟨2, ![128, 128]⟩
abbrev S16x128x1x128 : Shape := ⟨4, ![16, 128, 1, 128]⟩
abbrev S16x1x128x128 : Shape := ⟨4, ![16, 1, 128, 128]⟩
abbrev S1x1x1x128 : Shape := ⟨4, ![1, 1, 1, 128]⟩
abbrev S16x128x128x1 : Shape := ⟨4, ![16, 128, 128, 1]⟩
abbrev S_ : Shape := ⟨0, ![]⟩
abbrev S16x128x256 : Shape := ⟨3, ![16, 128, 256]⟩
abbrev S1x1x128 : Shape := ⟨3, ![1, 1, 128]⟩

abbrev nBuf : Space → Nat
  | .hbm => 32
  | .vmem => 0
  | .smem => 0
  | _ => 0

abbrev bufTy : (tb : Table) → Fin (tcTables nBuf tb) → BufTy
  | .hbm, ⟨0, _⟩ => ⟨S16x128x128, .f32⟩
  | .hbm, ⟨1, _⟩ => ⟨S16x128x128, .f32⟩
  | .hbm, ⟨2, _⟩ => ⟨S16x128x128x128, .f32⟩
  | .hbm, ⟨3, _⟩ => ⟨S128x384, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S16x128x128, .f32⟩
  | .hbm, ⟨11, _⟩ => ⟨S16x128x128, .f32⟩
  | .hbm, ⟨12, _⟩ => ⟨S16x128x128x128, .f32⟩
  | .hbm, ⟨13, _⟩ => ⟨S16x128x1x128, .f32⟩
  | .hbm, ⟨14, _⟩ => ⟨S16x1x128x128, .f32⟩
  | .hbm, ⟨15, _⟩ => ⟨S16x128x128x128, .f32⟩
  | .hbm, ⟨16, _⟩ => ⟨S16x128x128x128, .f32⟩
  | .hbm, ⟨17, _⟩ => ⟨S16x128x128x128, .f32⟩
  | .hbm, ⟨18, _⟩ => ⟨S16x128x128x128, .f32⟩
  | .hbm, ⟨19, _⟩ => ⟨S1x1x1x128, .f32⟩
  | .hbm, ⟨20, _⟩ => ⟨S16x128x128x128, .f32⟩
  | .hbm, ⟨21, _⟩ => ⟨S16x128x128x128, .f32⟩
  | .hbm, ⟨22, _⟩ => ⟨S16x128x128x1, .f32⟩
  | .hbm, ⟨23, _⟩ => ⟨S16x128x128x128, .f32⟩
  | .hbm, ⟨24, _⟩ => ⟨S16x128x128x128, .f32⟩
  | .hbm, ⟨25, _⟩ => ⟨S_, .f32⟩
  | .hbm, ⟨26, _⟩ => ⟨S16x128x128, .f32⟩
  | .hbm, ⟨27, _⟩ => ⟨S16x128x256, .f32⟩
  | .hbm, ⟨28, _⟩ => ⟨S16x128x128, .f32⟩
  | .hbm, ⟨29, _⟩ => ⟨S1x1x128, .f32⟩
  | .hbm, ⟨30, _⟩ => ⟨S16x128x128, .f32⟩
  | .hbm, ⟨31, _⟩ => ⟨S16x128x128, .f32⟩
  | _, _ => ⟨S16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  slices_S128x384_S128x128_0_0 : S128x384.Slices ![0, 0] S128x128
  slices_S128x384_S128x128_0_128 : S128x384.Slices ![0, 128] S128x128
  slices_S128x384_S128x128_0_256 : S128x384.Slices ![0, 256] S128x128
  bcast_S16x128x128_S16x128x1x128_0_1_3 : S16x128x128.BroadcastsInDim S16x128x1x128 (![0, 1, 3] : Fin 3 → Fin S16x128x1x128.rank)
  bcast_S16x128x128_S16x1x128x128_0_2_3 : S16x128x128.BroadcastsInDim S16x1x128x128 (![0, 2, 3] : Fin 3 → Fin S16x1x128x128.rank)
  bcast_S16x128x1x128_S16x128x128x128_0_1_2_3 : S16x128x1x128.BroadcastsInDim S16x128x128x128 (![0, 1, 2, 3] : Fin 4 → Fin S16x128x128x128.rank)
  bcast_S16x1x128x128_S16x128x128x128_0_1_2_3 : S16x1x128x128.BroadcastsInDim S16x128x128x128 (![0, 1, 2, 3] : Fin 4 → Fin S16x128x128x128.rank)
  bcast_S128_S1x1x1x128_3 : S128.BroadcastsInDim S1x1x1x128 (![3] : Fin 1 → Fin S1x1x1x128.rank)
  bcast_S1x1x1x128_S16x128x128x128_0_1_2_3 : S1x1x1x128.BroadcastsInDim S16x128x128x128 (![0, 1, 2, 3] : Fin 4 → Fin S16x128x128x128.rank)
  bcast_S16x128x128_S16x128x128x1_0_1_2 : S16x128x128.BroadcastsInDim S16x128x128x1 (![0, 1, 2] : Fin 3 → Fin S16x128x128x1.rank)
  bcast_S16x128x128x1_S16x128x128x128_0_1_2_3 : S16x128x128x1.BroadcastsInDim S16x128x128x128 (![0, 1, 2, 3] : Fin 4 → Fin S16x128x128x128.rank)
  reducesTo_S16x128x128x128_S16x128x128_d1 : S16x128x128x128.ReducesTo [1] S16x128x128
  h_S_ : 0 < S_.numel
  concatenates_S16x128x128_S16x128x128_S16x128x256_d2 : Shape.Concatenates [S16x128x128, S16x128x128] S16x128x256 2
  bcast_S128_S1x1x128_2 : S128.BroadcastsInDim S1x1x128 (![2] : Fin 1 → Fin S1x1x128.rank)
  bcast_S1x1x128_S16x128x128_0_1_2 : S1x1x128.BroadcastsInDim S16x128x128 (![0, 1, 2] : Fin 3 → Fin S16x128x128.rank)
  dot_S16x128x128_S128x128_S16x128x128_2_1_01_0_n_n_wf : DotDims.WF S16x128x128 S128x128 S16x128x128 [2] [1] [0, 1] [0] [] []
  dot_S16x128x128x128_S128x128_S16x128x128x128_3_1_012_0_n_n_wf : DotDims.WF S16x128x128x128 S128x128 S16x128x128x128 [3] [1] [0, 1, 2] [0] [] []
  dot_S16x128x256_S128x256_S16x128x128_2_1_01_0_n_n_wf : DotDims.WF S16x128x256 S128x256 S16x128x128 [2] [1] [0, 1] [0] [] []

variable [Facts₀]

def dot_S16x128x128_S128x128_S16x128x128_2_1_01_0_n_n : DotDims S16x128x128 S128x128 S16x128x128 where
  lhsContracting := [2]
  rhsContracting := [1]
  lhsNonContracting := [0, 1]
  rhsNonContracting := [0]
  lhsBatch := []
  rhsBatch := []
  wf := dot_S16x128x128_S128x128_S16x128x128_2_1_01_0_n_n_wf
def dot_S16x128x128x128_S128x128_S16x128x128x128_3_1_012_0_n_n : DotDims S16x128x128x128 S128x128 S16x128x128x128 where
  lhsContracting := [3]
  rhsContracting := [1]
  lhsNonContracting := [0, 1, 2]
  rhsNonContracting := [0]
  lhsBatch := []
  rhsBatch := []
  wf := dot_S16x128x128x128_S128x128_S16x128x128x128_3_1_012_0_n_n_wf
def dot_S16x128x256_S128x256_S16x128x128_2_1_01_0_n_n : DotDims S16x128x256 S128x256 S16x128x128 where
  lhsContracting := [2]
  rhsContracting := [1]
  lhsNonContracting := [0, 1]
  rhsNonContracting := [0]
  lhsBatch := []
  rhsBatch := []
  wf := dot_S16x128x256_S128x256_S16x128x128_2_1_01_0_n_n_wf

class Facts : Prop extends Facts₀ where

variable [Facts]
-- ==== Proof.Spec.lean ====
/-
  The message-passing layer as one function of its seven argument arrays, index by index, on the extended reals.

  For a batch b, a sender node i, a receiver node j and an output feature k, the message is
      msg b i j k = (((S b i k + R b j k) + E b i j k) + bm k) · adj b i j
  where, writing the message weight matrix Wm (128 rows, 384 columns) as three 128-column blocks W1 | W2 | W3,
      S b i k = Σ_d h b i d · W1 k d      (the sender's features)
      R b j k = Σ_d h b j d · W2 k d      (the receiver's features)
      E b i j k = Σ_d e b i j d · W3 k d  (the edge's features).
  The messages are summed over the senders, agg b j k = Σ_i msg b i j k; the node's own features and that sum are laid
  side by side in a row of 256 entries, and the update is
      out b n k = Σ_{d < 256} cat b n d · Wu k d + bu k.
  Nothing here depends on a program: the shapes are literal and the indices are built from coordinates.
-/
import Idealize.ShloMosaic.PureOps.Ideal
import Idealize.ShloMosaic.Lib.ValueIdx

noncomputable section

open scoped BigOperators

namespace Cert.Mpnn

open Idealize.ShloMosaic Idealize.ShloMosaic.ValueIdx

/-- Node features, adjacency and the result: batch × node × (feature | node). -/
abbrev SNode : Shape := ⟨3, ![16, 128, 128]⟩
/-- Edge features: batch × sender × receiver × feature. -/
abbrev SEdge : Shape := ⟨4, ![16, 128, 128, 128]⟩
/-- The message weights: output feature × (three blocks of 128 input features). -/
abbrev SWm : Shape := ⟨2, ![128, 384]⟩
/-- The update weights: output feature × (node features | aggregated messages). -/
abbrev SWu : Shape := ⟨2, ![128, 256]⟩
/-- A bias. -/
abbrev SBias : Shape := ⟨1, ![128]⟩

/-- Column `d` of the `s`-th 128-column block of the message weights. -/
def wcol (s : Fin 3) (d : Fin 128) : Fin 384 := ⟨128 * s.val + d.val, by have := s.isLt; have := d.isLt; omega⟩

@[simp] theorem wcol_val (s : Fin 3) (d : Fin 128) : (wcol s d).val = 128 * s.val + d.val := rfl

/-- The second half of a 256-entry row: entry `d` of the aggregated messages sits at column `128 + d`. -/
def hi (d : Fin 128) : Fin 256 := ⟨128 + d.val, by have := d.isLt; omega⟩
/-- The first half: entry `d` of the node's own features sits at column `d`. -/
def lo (d : Fin 128) : Fin 256 := ⟨d.val, by have := d.isLt; omega⟩

section
variable (h adj : SNode.Idx → EReal) (e : SEdge.Idx → EReal) (Wm : SWm.Idx → EReal) (bm : SBias.Idx → EReal)
  (Wu : SWu.Idx → EReal) (bu : SBias.Idx → EReal)

/-- A node's features through block `s` of the message weights, at output feature `k`. -/
def nodeTerm (s : Fin 3) (b : Fin 16) (i k : Fin 128) : EReal :=
  ∑ d : Fin 128, h (ix3 b i d) * Wm (ix2 k (wcol s d))

/-- An edge's features through the third block of the message weights. -/
def edgeTerm (b : Fin 16) (i j k : Fin 128) : EReal :=
  ∑ d : Fin 128, e (ix4 b i j d) * Wm (ix2 k (wcol 2 d))

/-- The message from sender `i` to receiver `j`, masked by the adjacency. -/
def msg (b : Fin 16) (i j k : Fin 128) : EReal :=
  (((nodeTerm h Wm 0 b i k + nodeTerm h Wm 1 b j k) + edgeTerm e Wm b i j k) + bm (ix1 k)) * adj (ix3 b i j)

/-- The messages a receiver gets, summed over the senders. -/
def agg (b : Fin 16) (j k : Fin 128) : EReal := ∑ i : Fin 128, msg h adj e Wm bm b i j k

/-- The row the update reads: the node's features, then its aggregated messages. -/
def cat (b : Fin 16) (n : Fin 128) (d : Fin 256) : EReal :=
  if hd : d.val < 128 then h (ix3 b n ⟨d.val, hd⟩) else agg h adj e Wm bm b n ⟨d.val - 128, by have := d.isLt; omega⟩

/-- The layer's result at batch `b`, node `n`, output feature `k`. -/
def out (b : Fin 16) (n k : Fin 128) : EReal :=
  (∑ d : Fin 256, cat h adj e Wm bm b n d * Wu (ix2 k d)) + bu (ix1 k)

/-- The layer as one function from the seven argument arrays to the result array. -/
def layer : SNode.Idx → EReal := fun i => out h adj e Wm bm Wu bu (i 0) (i 1) (i 2)

theorem layer_apply (b : Fin 16) (n k : Fin 128) :
    layer h adj e Wm bm Wu bu (ix3 b n k) = out h adj e Wm bm Wu bu b n k := rfl

end

end Cert.Mpnn

end
-- ==== Proof.RefValue.lean ====
/-
  The reference program's result, stage by stage, is the layer of Spec.lean: three products of node and edge features
  with the three column blocks of the message weights, their sum with the bias masked by the adjacency, the sum over
  senders (from a zero initial value), the node's features joined with it, the product with the update weights and the
  bias.
-/
import proofs.«162373_j4140348474008_1_alg».proof.Proof.Gen.ReferenceIdeal.Read
import proofs.«162373_j4140348474008_1_alg».proof.Proof.Spec
import Idealize.ShloMosaic.PureOps.Ideal.Laws
import Idealize.ShloMosaic.Lib.ValueIdx
import Idealize.ShloMosaic.Lib.Pipeline.Value

noncomputable section

open scoped BigOperators

namespace Cert.Mpnn.Ref

open Idealize.ShloMosaic Idealize.ShloMosaic.ValueIdx Cert.ReferenceIdeal Cert.ReferenceIdeal.Read

section Stages

variable (x0 x1 : (⟨S16x128x128, .f32⟩ : BufTy).Contents (Elt Ideal))
  (x2 : (⟨S16x128x128x128, .f32⟩ : BufTy).Contents (Elt Ideal)) (x3 : (⟨S128x384, .f32⟩ : BufTy).Contents (Elt Ideal))
  (x4 : (⟨S128, .f32⟩ : BufTy).Contents (Elt Ideal))

/-- The sender's product: node features against the first 128 columns of the message weights. -/
private theorem v3_at (b : Fin 16) (i k : Fin 128) :
    val_main_v3 (F := Ideal) x0 x3 (ix3 b i k) = Cert.Mpnn.nodeTerm x0 x3 0 b i k := by
  rw [val_main_v3_apply]
  unfold Cert.Mpnn.nodeTerm
  refine Finset.sum_congr rfl fun d _ => ?_
  rw [val_main_v0_apply]
  have e1 : lidx_main_v3 (ix3 b i k) d = ix3 b i d :=
    funext fun a => Fin.ext (by match a with | ⟨0, _⟩ => rfl | ⟨1, _⟩ => rfl | ⟨2, _⟩ => rfl)
  have e2 : idx_main_v0 (ridx_main_v3 (ix3 b i k) d) = ix2 k (Cert.Mpnn.wcol 0 d) :=
    funext fun a => Fin.ext (by
      match a with
      | ⟨0, _⟩ => rfl
      | ⟨1, _⟩ => show d.val = 128 * 0 + d.val; omega)
  rw [e1, e2]

/-- The receiver's product: node features against columns 128 to 255 of the message weights. -/
private theorem v4_at (b : Fin 16) (j k : Fin 128) :
    val_main_v4 (F := Ideal) x0 x3 (ix3 b j k) = Cert.Mpnn.nodeTerm x0 x3 1 b j k := by
  rw [val_main_v4_apply]
  unfold Cert.Mpnn.nodeTerm
  refine Finset.sum_congr rfl fun d _ => ?_
  rw [val_main_v1_apply]
  have e1 : lidx_main_v4 (ix3 b j k) d = ix3 b j d :=
    funext fun a => Fin.ext (by match a with | ⟨0, _⟩ => rfl | ⟨1, _⟩ => rfl | ⟨2, _⟩ => rfl)
  have e2 : idx_main_v1 (ridx_main_v4 (ix3 b j k) d) = ix2 k (Cert.Mpnn.wcol 1 d) :=
    funext fun a => Fin.ext (by
      match a with
      | ⟨0, _⟩ => rfl
      | ⟨1, _⟩ => show 128 + d.val = 128 * 1 + d.val; omega)
  rw [e1, e2]

/-- The edge's product: edge features against columns 256 to 383 of the message weights. -/
private theorem v5_at (b : Fin 16) (i j k : Fin 128) :
    val_main_v5 (F := Ideal) x2 x3 (ix4 b i j k) = Cert.Mpnn.edgeTerm x2 x3 b i j k := by
  rw [val_main_v5_apply]
  unfold Cert.Mpnn.edgeTerm
  refine Finset.sum_congr rfl fun d _ => ?_
  rw [val_main_v2_apply]
  have e1 : lidx_main_v5 (ix4 b i j k) d = ix4 b i j d :=
    funext fun a => Fin.ext (by match a with | ⟨0, _⟩ => rfl | ⟨1, _⟩ => rfl | ⟨2, _⟩ => rfl | ⟨3, _⟩ => rfl)
  have e2 : idx_main_v2 (ridx_main_v5 (ix4 b i j k) d) = ix2 k (Cert.Mpnn.wcol 2 d) :=
    funext fun a => Fin.ext (by
      match a with
      | ⟨0, _⟩ => rfl
      | ⟨1, _⟩ => show 256 + d.val = 128 * 2 + d.val; omega)
  rw [e1, e2]

/-- The masked message: the two node products are broadcast along the receiver and the sender axis, the bias along
    all but the feature axis, the adjacency along the feature axis. -/
private theorem v17_at (b : Fin 16) (i j k : Fin 128) :
    val_main_v17 (F := Ideal) x0 x1 x2 x3 x4 (ix4 b i j k) = Cert.Mpnn.msg x0 x1 x2 x3 x4 b i j k := by
  rw [val_main_v17_apply, val_main_v14_apply, val_main_v11_apply, val_main_v10_apply, val_main_v8_apply,
    val_main_v6_apply, val_main_v9_apply, val_main_v7_apply, val_main_v13_apply, val_main_v12_apply,
    val_main_v16_apply, val_main_v15_apply]
  have e8 : idx_main_v6 (idx_main_v8 (ix4 b i j k)) = ix3 b i k :=
    funext fun a => Fin.ext (by match a with | ⟨0, _⟩ => rfl | ⟨1, _⟩ => rfl | ⟨2, _⟩ => rfl)
  have e9 : idx_main_v7 (idx_main_v9 (ix4 b i j k)) = ix3 b j k :=
    funext fun a => Fin.ext (by match a with | ⟨0, _⟩ => rfl | ⟨1, _⟩ => rfl | ⟨2, _⟩ => rfl)
  have e13 : idx_main_v12 (idx_main_v13 (ix4 b i j k)) = ix1 k :=
    funext fun a => Fin.ext (by match a with | ⟨0, _⟩ => rfl)
  have e16 : idx_main_v15 (idx_main_v16 (ix4 b i j k)) = ix3 b i j :=
    funext fun a => Fin.ext (by match a with | ⟨0, _⟩ => rfl | ⟨1, _⟩ => rfl | ⟨2, _⟩ => rfl)
  rw [e8, e9, e13, e16, v3_at, v4_at, v5_at]
  rfl

/-- The sum over the senders, started from the constant zero. -/
private theorem v18_at (b : Fin 16) (j k : Fin 128) :
    val_main_v18 (F := Ideal) x0 x1 x2 x3 x4 (ix3 b j k) = Cert.Mpnn.agg x0 x1 x2 x3 x4 b j k := by
  rw [val_main_v18_apply, val_main_cst_apply]
  show Ideal.ofBits .f32 0x00000000#32 + _ = _
  rw [Ideal.ofBits_zero_f32, zero_add]
  unfold Cert.Mpnn.agg
  refine Finset.sum_congr rfl fun i _ => ?_
  have e : idx_main_v18 (ix3 b j k) i = ix4 b i j k :=
    funext fun a => Fin.ext (by match a with | ⟨0, _⟩ => rfl | ⟨1, _⟩ => rfl | ⟨2, _⟩ => rfl | ⟨3, _⟩ => rfl)
  rw [e, v17_at]

/-- The joined row: below column 128 it is the node's own features, from column 128 on the summed messages. -/
private theorem v19_at (b : Fin 16) (n : Fin 128) (d : Fin 256) :
    val_main_v19 (F := Ideal) x0 x1 x2 x3 x4 (ix3 b n d) = Cert.Mpnn.cat x0 x1 x2 x3 x4 b n d := by
  unfold val_main_v19 Cert.Mpnn.cat
  by_cases hd : d.val < 128
  · rw [dif_pos hd]
    refine concatenate_pair_apply_left (t := S16x128x256) (s₁ := S16x128x128) (s₂ := S16x128x128) 2 x0 _ _
      (ix3 b n d) (show S16x128x128.rank = S16x128x256.rank from rfl) (ix3 b n (⟨d.val, hd⟩ : Fin 128)) ?_
    intro a
    match a with
    | ⟨0, _⟩ => rfl
    | ⟨1, _⟩ => rfl
    | ⟨2, _⟩ => rfl
  · rw [dif_neg hd, ← v18_at]
    refine concatenate_pair_apply_right (t := S16x128x256) (s₁ := S16x128x128) (s₂ := S16x128x128) 2 x0 _ _
      (ix3 b n d) (show S16x128x128.rank = S16x128x256.rank from rfl) (show S16x128x128.rank = S16x128x256.rank from rfl)
      (ix3 b n (⟨d.val - 128, by have := d.isLt; omega⟩ : Fin 128)) ?_ ?_
    · intro a ha
      match a, ha with
      | ⟨0, _⟩, _ => rfl
      | ⟨1, _⟩, _ => rfl
      | ⟨2, _⟩, ha => exact absurd rfl ha
    · show d.val - 128 + 128 = d.val
      omega

end Stages

/-- The reference's last stage is the layer, as a function of the seven argument arrays. -/
theorem val_eq_layer (x0 x1 : (⟨S16x128x128, .f32⟩ : BufTy).Contents (Elt Ideal))
    (x2 : (⟨S16x128x128x128, .f32⟩ : BufTy).Contents (Elt Ideal)) (x3 : (⟨S128x384, .f32⟩ : BufTy).Contents (Elt Ideal))
    (x4 : (⟨S128, .f32⟩ : BufTy).Contents (Elt Ideal)) (x5 : (⟨S128x256, .f32⟩ : BufTy).Contents (Elt Ideal))
    (x6 : (⟨S128, .f32⟩ : BufTy).Contents (Elt Ideal)) :
    val_main_v23 (F := Ideal) x0 x1 x2 x3 x4 x5 x6 = Cert.Mpnn.layer x0 x1 x2 x3 x4 x5 x6 := by
  funext i
  obtain ⟨b, n, k, rfl⟩ : ∃ (b : Fin 16) (n k : Fin 128), i = ix3 b n k := ⟨i 0, i 1, i 2, eq_ix3 i⟩
  rw [Cert.Mpnn.layer_apply, val_main_v23_apply, val_main_v20_apply, val_main_v22_apply, val_main_v21_apply]
  unfold Cert.Mpnn.out
  have e6 : idx_main_v21 (idx_main_v22 (ix3 b n k)) = ix1 k :=
    funext fun a => Fin.ext (by match a with | ⟨0, _⟩ => rfl)
  rw [e6]
  refine congrArg (· + x6 (ix1 k)) (Finset.sum_congr rfl fun d _ => ?_)
  have el : lidx_main_v20 (ix3 b n k) d = ix3 b n d :=
    funext fun a => Fin.ext (by match a with | ⟨0, _⟩ => rfl | ⟨1, _⟩ => rfl | ⟨2, _⟩ => rfl)
  have er : ridx_main_v20 (ix3 b n k) d = ix2 k d :=
    funext fun a => Fin.ext (by match a with | ⟨0, _⟩ => rfl | ⟨1, _⟩ => rfl)
  rw [el, er, v19_at]

end Cert.Mpnn.Ref

end
-- ==== Proof.Algebra.lean ====
/-
  Two facts of arithmetic in a commutative additive monoid (the extended reals are one: sums there may be
  regrouped and reordered freely, infinities included) that join the kernel's order of operations to the layer's.

  * The kernel adds the edge term first, then the sender's, then the receiver's; the layer adds sender, receiver, edge.
  * The kernel sums the 128 senders in eight chunks of sixteen, carrying the running total from chunk to chunk; the
    layer sums them at once.
-/
import Mathlib.Algebra.BigOperators.Fin
import Mathlib.Algebra.BigOperators.Intervals
import Mathlib.Tactic.Abel

open scoped BigOperators

namespace Cert.Mpnn.Algebra

variable {M : Type*} [AddCommMonoid M]

/-- Edge first or last: the same sum of four terms. -/
theorem four_terms (E S R B : M) : ((E + S) + R) + B = ((S + R) + E) + B := by
  abel

/-- A running total over eight chunks of sixteen is the sum over all 128. -/
theorem chunked_sum (f : Fin 128 → M) (T : ℕ → M) (h0 : T 0 = 0)
    (hs : ∀ (c : ℕ) (hc : c < 8), T (c + 1) = T c + ∑ i : Fin 16, f ⟨16 * c + i.val, by have := i.isLt; omega⟩) :
    T 8 = ∑ i : Fin 128, f i := by
  -- the summand continued by zero past the last sender, so that partial sums range over initial segments of ℕ
  let g : ℕ → M := fun i => if h : i < 128 then f ⟨i, h⟩ else 0
  have hg : ∀ (i : ℕ) (h : i < 128), g i = f ⟨i, h⟩ := fun i h => dif_pos h
  have key : ∀ c : ℕ, c ≤ 8 → T c = ∑ i ∈ Finset.range (16 * c), g i := by
    intro c
    induction c with
    | zero => intro _; simpa using h0
    | succ c ih =>
      intro hc
      have hc' : c < 8 := by omega
      rw [hs c hc', ih (by omega), show 16 * (c + 1) = 16 * c + 16 by omega, Finset.sum_range_add]
      congr 1
      rw [← Fin.sum_univ_eq_sum_range (fun i => g (16 * c + i)) 16]
      refine Finset.sum_congr rfl fun i _ => ?_
      exact (hg _ (by have := i.isLt; omega)).symm
  rw [key 8 le_rfl, show 16 * 8 = 128 from rfl, ← Fin.sum_univ_eq_sum_range g 128]
  exact Finset.sum_congr rfl fun i _ => hg i.val i.isLt

end Cert.Mpnn.Algebra
-- ==== Proof.Blocks.lean ====
/-
  Where the kernel's blocks sit in the argument arrays.

  The grid has one point per batch. At point `t` the edge, adjacency and node-feature windows hold batch `t` of their
  arrays (a leading unit axis in front); the bias windows hold their arrays whole; the two weight windows hold the
  host's transposes of the weight matrices whole, so entry (r, k) of a weight block is entry (k, r) of the argument.
-/
import proofs.«162373_j4140348474008_1_alg».proof.Proof.Gen.KernelIdeal.Frame
import proofs.«162373_j4140348474008_1_alg».proof.Proof.Spec
import Idealize.ShloMosaic.Lib.ValueIdx
import Idealize.ShloMosaic.Lib.Pipeline.Value
import Idealize.ShloMosaic.Lib.StableHlo.Run

noncomputable section

namespace Cert.Mpnn.Blocks

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The seven argument arrays on core `c`, by their roles. -/
abbrev hA (c : Dev nD) : Vec Ideal S16x128x128 .f32 := m ((c : Thread nD τ).loc main_arg0)
abbrev adjA (c : Dev nD) : Vec Ideal S16x128x128 .f32 := m ((c : Thread nD τ).loc main_arg1)
abbrev eA (c : Dev nD) : Vec Ideal S16x128x128x128 .f32 := m ((c : Thread nD τ).loc main_arg2)
abbrev WmA (c : Dev nD) : Vec Ideal S128x384 .f32 := m ((c : Thread nD τ).loc main_arg3)
abbrev bmA (c : Dev nD) : Vec Ideal S128 .f32 := m ((c : Thread nD τ).loc main_arg4)
abbrev WuA (c : Dev nD) : Vec Ideal S128x256 .f32 := m ((c : Thread nD τ).loc main_arg5)
abbrev buA (c : Dev nD) : Vec Ideal S128 .f32 := m ((c : Thread nD τ).loc main_arg6)

/-- The batch a grid point works on. -/
def batch (t : Fin cfg0.N) : Fin 16 := ⟨t.val, by have h := t.isLt; have hN : cfg0.N = 16 := N_0; omega⟩

@[simp] theorem batch_val (t : Fin cfg0.N) : (batch t).val = t.val := rfl

/-- The input blocks at point `t`, at their literal shapes. -/
abbrev eBlk (c : Dev nD) (t : Fin cfg0.N) : Vec Ideal S1x128x128x128 .f32 := iblk m c 0 t
abbrev adjBlk (c : Dev nD) (t : Fin cfg0.N) : Vec Ideal S1x128x128 .f32 := iblk m c 1 t
abbrev hBlk (c : Dev nD) (t : Fin cfg0.N) : Vec Ideal S1x128x128 .f32 := iblk m c 2 t
abbrev wmBlk (c : Dev nD) (t : Fin cfg0.N) : Vec Ideal S384x128 .f32 := iblk m c 3 t
abbrev bmBlk (c : Dev nD) (t : Fin cfg0.N) : Vec Ideal S128 .f32 := iblk m c 4 t
abbrev wuBlk (c : Dev nD) (t : Fin cfg0.N) : Vec Ideal S256x128 .f32 := iblk m c 5 t
abbrev buBlk (c : Dev nD) (t : Fin cfg0.N) : Vec Ideal S128 .f32 := iblk m c 6 t

/-! ## The index maps, decided once over the grid -/

/-- The edge window's block index is the grid point on the batch axis and zero on the other three. -/
theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- The adjacency window's block index: the grid point, then zeros. -/
theorem idx1 : ∀ t : Fin cfg0.N, win0_1.index t (0 : Fin 3) = t.val ∧ win0_1.index t (1 : Fin 3) = 0
    ∧ win0_1.index t (2 : Fin 3) = 0 :=
  (by decide +kernel : ∀ t : Fin grid0.N, _)

/-- The node-feature window's block index: the grid point, then zeros. -/
theorem idx2 : ∀ t : Fin cfg0.N, win0_2.index t (0 : Fin 3) = t.val ∧ win0_2.index t (1 : Fin 3) = 0
    ∧ win0_2.index t (2 : Fin 3) = 0 :=
  (by decide +kernel : ∀ t : Fin grid0.N, _)

/-- The message-weight window holds its array whole at every point. -/
theorem idx3 : ∀ t : Fin cfg0.N, win0_3.index t (0 : Fin 2) = 0 ∧ win0_3.index t (1 : Fin 2) = 0 :=
  (by decide +kernel : ∀ t : Fin grid0.N, _)

/-- The message-bias window holds its array whole at every point. -/
theorem idx4 : ∀ t : Fin cfg0.N, win0_4.index t (0 : Fin 1) = 0 :=
  (by decide +kernel : ∀ t : Fin grid0.N, _)

/-- The update-weight window holds its array whole at every point. -/
theorem idx5 : ∀ t : Fin cfg0.N, win0_5.index t (0 : Fin 2) = 0 ∧ win0_5.index t (1 : Fin 2) = 0 :=
  (by decide +kernel : ∀ t : Fin grid0.N, _)

/-- The update-bias window holds its array whole at every point. -/
theorem idx6 : ∀ t : Fin cfg0.N, win0_6.index t (0 : Fin 1) = 0 :=
  (by decide +kernel : ∀ t : Fin grid0.N, _)

/-! ## The host's transposes, as the region finds them -/

/-- The first transposed array is the transpose of the message weights. -/
theorem V_v0 (c : Dev nD) : (V m c main_v0 : S384x128.Idx → EReal)
    = transpose S384x128 [1, 0] (m ((c : Thread nD τ).loc main_arg3)) transposes_S128x384_S384x128_1_0 := by
  dsimp only [V, hostOps0]; after_results

/-- The second transposed array is the transpose of the update weights. -/
theorem V_v1 (c : Dev nD) : (V m c main_v1 : S256x128.Idx → EReal)
    = transpose S256x128 [1, 0] (m ((c : Thread nD τ).loc main_arg5)) transposes_S128x256_S256x128_1_0 := by
  dsimp only [V, hostOps0]; after_results

/-! ## The blocks -/

/-- A block's coordinate on an axis is its block index times the block's extent plus the coordinate inside the block;
    on the batch axis that is the grid point, on the others the inner coordinate. -/
theorem eBlk_apply (c : Dev nD) (t : Fin cfg0.N) (u : Fin 1) (i j d : Fin 128) :
    eBlk m c t (ix4 u i j d) = eA m c (ix4 (batch t) i j d) := by
  obtain ⟨e0, e1, e2, e3⟩ := idx0 t
  show V m c main_arg2 (((cfg0.win 0).blk t).view.emb (ix4 u i j d)) = m ((c : Thread nD τ).loc main_arg2) (ix4 (batch t) i j d)
  refine (congrFun (V_main_arg2 m c) _).trans (congrArg _ (funext fun a => Fin.ext ?_))
  have hu : u.val < 1 := u.isLt
  match a with
  | ⟨0, _⟩ => show win0_0.index t (0 : Fin 4) * 1 + 1 * u.val = t.val; omega
  | ⟨1, _⟩ => show win0_0.index t (1 : Fin 4) * 128 + 1 * i.val = i.val; omega
  | ⟨2, _⟩ => show win0_0.index t (2 : Fin 4) * 128 + 1 * j.val = j.val; omega
  | ⟨3, _⟩ => show win0_0.index t (3 : Fin 4) * 128 + 1 * d.val = d.val; omega

theorem adjBlk_apply (c : Dev nD) (t : Fin cfg0.N) (u : Fin 1) (i j : Fin 128) :
    adjBlk m c t (ix3 u i j) = adjA m c (ix3 (batch t) i j) := by
  obtain ⟨e0, e1, e2⟩ := idx1 t
  show V m c main_arg1 (((cfg0.win 1).blk t).view.emb (ix3 u i j)) = m ((c : Thread nD τ).loc main_arg1) (ix3 (batch t) i j)
  refine (congrFun (V_main_arg1 m c) _).trans (congrArg _ (funext fun a => Fin.ext ?_))
  have hu : u.val < 1 := u.isLt
  match a with
  | ⟨0, _⟩ => show win0_1.index t (0 : Fin 3) * 1 + 1 * u.val = t.val; omega
  | ⟨1, _⟩ => show win0_1.index t (1 : Fin 3) * 128 + 1 * i.val = i.val; omega
  | ⟨2, _⟩ => show win0_1.index t (2 : Fin 3) * 128 + 1 * j.val = j.val; omega

theorem hBlk_apply (c : Dev nD) (t : Fin cfg0.N) (u : Fin 1) (i d : Fin 128) :
    hBlk m c t (ix3 u i d) = hA m c (ix3 (batch t) i d) := by
  obtain ⟨e0, e1, e2⟩ := idx2 t
  show V m c main_arg0 (((cfg0.win 2).blk t).view.emb (ix3 u i d)) = m ((c : Thread nD τ).loc main_arg0) (ix3 (batch t) i d)
  refine (congrFun (V_main_arg0 m c) _).trans (congrArg _ (funext fun a => Fin.ext ?_))
  have hu : u.val < 1 := u.isLt
  match a with
  | ⟨0, _⟩ => show win0_2.index t (0 : Fin 3) * 1 + 1 * u.val = t.val; omega
  | ⟨1, _⟩ => show win0_2.index t (1 : Fin 3) * 128 + 1 * i.val = i.val; omega
  | ⟨2, _⟩ => show win0_2.index t (2 : Fin 3) * 128 + 1 * d.val = d.val; omega

/-- The message weights reach the kernel transposed: row `r` of the block is column `r` of the argument. -/
theorem wmBlk_apply (c : Dev nD) (t : Fin cfg0.N) (r : Fin 384) (k : Fin 128) :
    wmBlk m c t (ix2 r k) = WmA m c (ix2 k r) := by
  obtain ⟨e0, e1⟩ := idx3 t
  show V m c main_v0 (((cfg0.win 3).blk t).view.emb (ix2 r k)) = m ((c : Thread nD τ).loc main_arg3) (ix2 k r)
  have hi : ((cfg0.win 3).blk t).view.emb (ix2 r k) = (ix2 r k : S384x128.Idx) := by
    funext a; apply Fin.ext
    match a with
    | ⟨0, _⟩ => show win0_3.index t (0 : Fin 2) * 384 + 1 * r.val = r.val; omega
    | ⟨1, _⟩ => show win0_3.index t (1 : Fin 2) * 128 + 1 * k.val = k.val; omega
  refine (congrArg (V m c main_v0 : S384x128.Idx → EReal) hi).trans ?_
  exact (congrFun (V_v0 m c) _).trans (transpose_apply _ _ _ _ _ fun b => match b with | ⟨0, _⟩ => rfl | ⟨1, _⟩ => rfl)

theorem bmBlk_apply (c : Dev nD) (t : Fin cfg0.N) (k : Fin 128) :
    bmBlk m c t (ix1 k) = bmA m c (ix1 k) := by
  have e0 := idx4 t
  show V m c main_arg4 (((cfg0.win 4).blk t).view.emb (ix1 k)) = m ((c : Thread nD τ).loc main_arg4) (ix1 k)
  refine (congrFun (V_main_arg4 m c) _).trans (congrArg _ (funext fun a => Fin.ext ?_))
  match a with
  | ⟨0, _⟩ => show win0_4.index t (0 : Fin 1) * 128 + 1 * k.val = k.val; omega

/-- The update weights likewise. -/
theorem wuBlk_apply (c : Dev nD) (t : Fin cfg0.N) (d : Fin 256) (k : Fin 128) :
    wuBlk m c t (ix2 d k) = WuA m c (ix2 k d) := by
  obtain ⟨e0, e1⟩ := idx5 t
  show V m c main_v1 (((cfg0.win 5).blk t).view.emb (ix2 d k)) = m ((c : Thread nD τ).loc main_arg5) (ix2 k d)
  have hi : ((cfg0.win 5).blk t).view.emb (ix2 d k) = (ix2 d k : S256x128.Idx) := by
    funext a; apply Fin.ext
    match a with
    | ⟨0, _⟩ => show win0_5.index t (0 : Fin 2) * 256 + 1 * d.val = d.val; omega
    | ⟨1, _⟩ => show win0_5.index t (1 : Fin 2) * 128 + 1 * k.val = k.val; omega
  refine (congrArg (V m c main_v1 : S256x128.Idx → EReal) hi).trans ?_
  exact (congrFun (V_v1 m c) _).trans (transpose_apply _ _ _ _ _ fun b => match b with | ⟨0, _⟩ => rfl | ⟨1, _⟩ => rfl)

theorem buBlk_apply (c : Dev nD) (t : Fin cfg0.N) (k : Fin 128) :
    buBlk m c t (ix1 k) = buA m c (ix1 k) := by
  have e0 := idx6 t
  show V m c main_arg6 (((cfg0.win 6).blk t).view.emb (ix1 k)) = m ((c : Thread nD τ).loc main_arg6) (ix1 k)
  refine (congrFun (V_main_arg6 m c) _).trans (congrArg _ (funext fun a => Fin.ext ?_))
  match a with
  | ⟨0, _⟩ => show win0_6.index t (0 : Fin 1) * 128 + 1 * k.val = k.val; omega

end Cert.Mpnn.Blocks

end
-- ==== Proof.LibLayoutCols.lean ====
/-
  General facts about layout operations read at an index, independent of any program, in the style of the library's
  own small-shape lemmas: the "keepdims" forms a row-wise reduction meets (a vector of row results made a column, the
  column copied across the row), a middle or leading unit axis added and then copied, a vector copied over two leading
  axes, and the cast that merges the two leading axes of a rank-3 array into one row axis. Each says which single entry
  of the operand an entry of the result is.
-/
import Idealize.ShloMosaic.Lib.Pipeline.Value
import Idealize.ShloMosaic.Lib.ValueIdx

noncomputable section

namespace Idealize.ShloMosaic.LibLayoutCols

open Idealize.ShloMosaic Idealize.ShloMosaic.ValueIdx

variable {α : Type}

/-! ## A vector as a column, and a column across its rows -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector of per-row values made a column and copied across the row reads, at `(p, c)`, the value of row `p`. -/
theorem broadcastTo_shapeCast_col_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A unit axis added in the middle or in front of a matrix, then copied -/

/-- An `[a, c]` array cast to `[a, 1, c]` reads, at `(r, u, j)`, the operand at `(r, j)`. -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (j : Fin c) :
    shapeCast ⟨3, ![a, 1, c]⟩ x h (ix3 r u j) = x (ix2 r j) :=
  shapeCast_apply x h _ _ (by
    have hu : u.val = 0 := by omega
    rw [Shape.rowMajor_val_three, Shape.rowMajor_val_two]
    show r.val * c + j.val = (r.val * 1 + u.val) * c + j.val
    rw [hu, Nat.mul_one, Nat.add_zero])

/-- An `[a, 1, c]` array broadcast to `[a, b, c]` reads, at `(r, u, j)`, the operand at `(r, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (u : Fin b) (j : Fin c) :
    broadcastTo ⟨3, ![a, b, c]⟩ v h (ix3 r u j) = v (ix3 r (0 : Fin 1) j) := by
  refine broadcastTo_apply v h (ix3 r u j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(r, u, j)`, the operand at `(0, u, j)`. -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (u : Fin b) (j : Fin c) :
    broadcastTo ⟨3, ![a, b, c]⟩ v h (ix3 r u j) = v (ix3 (0 : Fin 1) u j) := by
  refine broadcastTo_apply v h (ix3 r u j) (ix3 (0 : Fin 1) u j) fun ax => ?_
  match ax with
  | ⟨0, _⟩ => rfl
  | ⟨1, _⟩ =>
    show u.val = if b = 1 then 0 else u.val
    split
    · have := u.isLt; omega
    · rfl
  | ⟨2, _⟩ =>
    show j.val = if c = 1 then 0 else j.val
    split
    · have := j.isLt; omega
    · rfl

/-! ## A vector copied over two leading axes -/

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * c + j.val
    simp only [hu, hw, Nat.zero_mul, Nat.add_zero, Nat.zero_add])

/-- A `[1, 1, c]` array broadcast to `[a, b, c]` reads, at `(r, u, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (u : Fin b) (j : Fin c) :
    broadcastTo ⟨3, ![a, b, c]⟩ v h (ix3 r u j) = v (ix3 (0 : Fin 1) (0 : Fin 1) j) := by
  refine broadcastTo_apply v h (ix3 r u j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-! ## The two leading axes of a rank-3 array merged into one row axis -/

/-- An `[a, b, c]` array cast to `[n, c]` (so `n = a·b`) reads, at row `p = r·b + u` and column `j`, the operand at
    `(r, u, j)`: the row-major position is the same. -/
theorem shapeCast_abc_nc_apply {a b c n : ℕ} (x : (⟨3, ![a, b, c]⟩ : Shape).Idx → α)
    (h : (⟨3, ![a, b, c]⟩ : Shape).ShapeCasts ⟨2, ![n, c]⟩) (r : Fin a) (u : Fin b) (p : Fin n)
    (hp : p.val = r.val * b + u.val) (j : Fin c) :
    shapeCast ⟨2, ![n, c]⟩ x h (ix2 p j) = x (ix3 r u j) :=
  shapeCast_apply x h _ _ (by
    rw [Shape.rowMajor_val_three, Shape.rowMajor_val_two]
    show (r.val * b + u.val) * c + j.val = p.val * c + j.val
    rw [hp])

end Idealize.ShloMosaic.LibLayoutCols

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.TripPayload.lean ====
/-
  One trip of the kernel's sender loop, read at an entry.

  The loop carries a 128 × 128 accumulator (receiver × output feature). A trip takes sixteen senders: their edge
  rows through the third weight block, their own features through the first, every receiver's features through the
  second (computed once, before the loop), the bias, all masked by the adjacency rows of those senders, and adds the
  sum over the sixteen senders to the accumulator.
-/
import proofs.«162373_j4140348474008_1_alg».proof.Proof.Gen.KernelIdeal.Skeleton
import proofs.«162373_j4140348474008_1_alg».proof.Proof.LibLayoutCols
import proofs.«162373_j4140348474008_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Mpnn.Trip

open Idealize.ShloMosaic Idealize.ShloMosaic.ValueIdx Cert.KernelIdeal Cert.KernelIdeal.Gen
open Idealize.ShloMosaic.LibPlainMatmul Idealize.ShloMosaic.LibLayoutCols

/-! ## Layout operations read at an index: a merged row axis split again, and a trailing unit axis added and copied -/

section Layout
variable {α : Type}

/-- A cast between equal shapes reads the operand at the same index. -/
private theorem shapeCast_same_apply {s : Shape} (x : s.Idx → α) (h : s.ShapeCasts s) (i : s.Idx) :
    shapeCast s x h i = x i :=
  shapeCast_apply x h i i rfl

/-- An `[n, c]` array cast to `[a, b, c]` (so `n = a·b`) reads, at `(r, u, j)`, the operand at row `p = r·b + u`,
    column `j`: the row-major position is the same. -/
private theorem shapeCast_nc_abc_apply {a b c n : ℕ} (x : (⟨2, ![n, c]⟩ : Shape).Idx → α)
    (h : (⟨2, ![n, c]⟩ : Shape).ShapeCasts ⟨3, ![a, b, c]⟩) (r : Fin a) (u : Fin b) (p : Fin n)
    (hp : p.val = r.val * b + u.val) (j : Fin c) :
    shapeCast ⟨3, ![a, b, c]⟩ x h (ix3 r u j) = x (ix2 p j) :=
  shapeCast_apply x h _ _ (by
    rw [Shape.rowMajor_val_three, Shape.rowMajor_val_two]
    show p.val * c + j.val = (r.val * b + u.val) * c + j.val
    rw [hp])

/-- An `[a, b]` array cast to `[a, b, 1]` reads, at `(r, u, w)`, the operand at `(r, u)`. -/
private theorem shapeCast_ab_ab1_apply {a b : ℕ} (x : (⟨2, ![a, b]⟩ : Shape).Idx → α)
    (h : (⟨2, ![a, b]⟩ : Shape).ShapeCasts ⟨3, ![a, b, 1]⟩) (r : Fin a) (u : Fin b) (w : Fin 1) :
    shapeCast ⟨3, ![a, b, 1]⟩ x h (ix3 r u w) = x (ix2 r u) :=
  shapeCast_apply x h _ _ (by
    have hw : w.val = 0 := by omega
    rw [Shape.rowMajor_val_three, Shape.rowMajor_val_two]
    show r.val * b + u.val = (r.val * b + u.val) * 1 + w.val
    rw [hw, Nat.mul_one, Nat.add_zero])

/-- An `[a, b, 1]` array broadcast to `[a, b, c]` reads, at `(r, u, j)`, the operand at `(r, u, 0)`. -/
private theorem broadcastTo_ab1_abc_apply {a b c : ℕ} (v : (⟨3, ![a, b, 1]⟩ : Shape).Idx → α)
    (h : (⟨3, ![a, b, 1]⟩ : Shape).Broadcasts ⟨3, ![a, b, c]⟩) (r : Fin a) (u : Fin b) (j : Fin c) :
    broadcastTo ⟨3, ![a, b, c]⟩ v h (ix3 r u j) = v (ix3 r u (0 : Fin 1)) := by
  refine broadcastTo_apply v h (ix3 r u j) (ix3 r u (0 : Fin 1)) fun ax => ?_
  match ax with
  | ⟨0, _⟩ =>
    show r.val = if a = 1 then 0 else r.val
    split
    · have := r.isLt; omega
    · rfl
  | ⟨1, _⟩ =>
    show u.val = if b = 1 then 0 else u.val
    split
    · have := u.isLt; omega
    · rfl
  | ⟨2, _⟩ => rfl

end Layout

/-! ## The reduction over the trip's senders and the three products, at an entry -/

/-- The sum over the leading axis of a `16 × 128 × 128` array, at `(j, k)`: the sum over `i` of the array at
    `(i, j, k)`. -/
private theorem reduce0_apply (X : FVec Ideal S16x128x128 .f32) (j k : Fin 128) :
    multiReduction (F := Ideal) .add [0] S128x128 X 0x00000000#32 reduces_S16x128x128_S128x128 (.inl rfl) rfl (ix2 j k)
      = ∑ i : Fin 16, X (ix3 i j k) := by
  refine (Ideal.multiReduction_add_single X _ reduces_S16x128x128_S128x128 _ _ (ix2 j k)).trans ?_
  refine Finset.sum_congr rfl fun i _ => congrArg X ?_
  funext ax
  match ax with
  | ⟨0, _⟩ => rfl
  | ⟨1, _⟩ => rfl
  | ⟨2, _⟩ => rfl

/-- The product of the senders' edge rows (all `16 · 128` of them as rows) with a weight block, into zero. -/
private theorem matmulE_apply (A : FVec Ideal S2048x128 .bf16) (B : FVec Ideal S128x128 .bf16) (p : Fin 2048) (k : Fin 128) :
    matmul dot_S2048x128_S128x128_S2048x128_1_0_0_1_n_n none A B (constant (F := Ideal) S2048x128 .f32 0x00000000#32) (ix2 p k)
      = ∑ d : Fin 128, A (ix2 p d) * B (ix2 d k) :=
  matmul_plain_zero_apply none A B p k

/-- The product of the sixteen senders' features with a weight block, into zero. -/
private theorem matmulS_apply (A : FVec Ideal S16x128 .bf16) (B : FVec Ideal S128x128 .bf16) (p : Fin 16) (k : Fin 128) :
    matmul dot_S16x128_S128x128_S16x128_1_0_0_1_n_n none A B (constant (F := Ideal) S16x128 .f32 0x00000000#32) (ix2 p k)
      = ∑ d : Fin 128, A (ix2 p d) * B (ix2 d k) :=
  matmul_plain_zero_apply none A B p k

/-- The product of every receiver's features with a weight block, into zero. -/
private theorem matmulR_apply (A : FVec Ideal S128x128 .bf16) (B : FVec Ideal S128x128 .bf16) (p : Fin 128) (k : Fin 128) :
    matmul dot_S128x128_S128x128_S128x128_1_0_0_1_n_n none A B (constant (F := Ideal) S128x128 .f32 0x00000000#32) (ix2 p k)
      = ∑ d : Fin 128, A (ix2 p d) * B (ix2 d k) :=
  matmul_plain_zero_apply none A B p k

/-- The trip's yield at receiver `j`, output feature `k`: the accumulator there plus, summed over the trip's sixteen
    senders `i`, the masked message `(((E i j k + S i k) + R j k) + bias k) · adj i j`. -/
theorem pay3_apply (v0 : Vec Ideal S1x128x128 .f32) (v3 v6 v9 : Vec Ideal S128x128 .f32) (v13 : Vec Ideal S128 .f32)
    (acc : FVec Ideal S128x128 .f32) (v33 : Vec Ideal S1x16x128x128 .f32) (v40 v45 : Vec Ideal S1x16x128 .f32)
    (j k : Fin 128) :
    k0_pay3 v0 v3 v6 v9 v13 acc v33 v40 v45 (ix2 j k)
      = acc (ix2 j k) + ∑ i : Fin 16,
          ((((∑ d : Fin 128, v33 (ix4 (0 : Fin 1) i j d) * v9 (ix2 d k))
              + ∑ d : Fin 128, v40 (ix3 (0 : Fin 1) i d) * v3 (ix2 d k))
            + ∑ d : Fin 128, v0 (ix3 (0 : Fin 1) j d) * v6 (ix2 d k))
           + v13 (ix1 k)) * v45 (ix3 (0 : Fin 1) i j) := by
  unfold k0_pay3 k0_pay1
  dsimp only
  rw [addf_apply, reduce0_apply]
  refine congrArg (acc (ix2 j k) + ·) (Finset.sum_congr rfl fun i _ => ?_)
  rw [mulf_apply, addf_apply, addf_apply, addf_apply]
  have hp : (⟨i.val * 128 + j.val, by have := i.isLt; have := j.isLt; omega⟩ : Fin 2048).val = i.val * 128 + j.val := rfl
  refine congrArg₂ (· * ·) (congrArg₂ (· + ·) (congrArg₂ (· + ·) (congrArg₂ (· + ·) ?_ ?_) ?_) ?_) ?_
  · -- the edge rows: row i·128 + j of the 2048-row product
    rw [shapeCast_nc_abc_apply _ _ i j _ hp k, matmulE_apply]
    refine Finset.sum_congr rfl fun d _ => ?_
    rw [truncf_apply, truncf_apply, shapeCast_abc_nc_apply _ _ i j _ hp d, shapeCast_1abc_abc_apply,
      shapeCast_same_apply]
  · -- the senders' own features: row i of the 16-row product, copied over the receivers
    rw [broadcastTo_a1c_abc_apply, shapeCast_ac_a1c_apply, matmulS_apply]
    refine Finset.sum_congr rfl fun d _ => ?_
    rw [truncf_apply, truncf_apply, shapeCast_1ab_ab_apply, shapeCast_same_apply]
  · -- the receivers' features: row j of the 128-row product, copied over the senders
    rw [broadcastTo_1bc_abc_apply, shapeCast_ab_1ab_apply, matmulR_apply]
    refine Finset.sum_congr rfl fun d _ => ?_
    rw [truncf_apply, truncf_apply, shapeCast_1ab_ab_apply, shapeCast_same_apply]
  · -- the bias
    rw [broadcastTo_11c_abc_apply, shapeCast_c_11c_apply]
  · -- the adjacency entry of sender i, receiver j, copied over the output features
    rw [broadcastTo_ab1_abc_apply, shapeCast_ab_ab1_apply, shapeCast_1ab_ab_apply]

end Cert.Mpnn.Trip

end
-- ==== Proof.UpdatePayload.lean ====
/-
  The kernel's update step, read at an entry: the node's own features and the aggregated messages laid side by side
  in a row of 256 entries, that row through the update weights, plus the bias.
-/
import proofs.«162373_j4140348474008_1_alg».proof.Proof.Gen.KernelIdeal.Skeleton
import proofs.«162373_j4140348474008_1_alg».proof.Proof.LibLayoutCols
import proofs.«162373_j4140348474008_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Mpnn.Update

open Idealize.ShloMosaic Idealize.ShloMosaic.ValueIdx Cert.KernelIdeal Cert.KernelIdeal.Gen

/-- Two 128-column blocks laid side by side, read at a column of the first block: the first block there. -/
private theorem concat_cols_left {α : Type} (x₁ x₂ : (⟨2, ![128, 128]⟩ : Shape).Idx → α)
    (h : Shape.Concatenates [(⟨2, ![128, 128]⟩ : Shape), ⟨2, ![128, 128]⟩] ⟨2, ![128, 256]⟩ 1)
    (n : Fin 128) (d : Fin 256) (hd : d.val < 128) :
    concatenate (⟨2, ![128, 256]⟩ : Shape) 1 [⟨_, x₁⟩, ⟨_, x₂⟩] h (ix2 n d) = x₁ (ix2 n ⟨d.val, hd⟩) := by
  refine concatenate_pair_apply_left 1 x₁ x₂ h (ix2 n d) rfl (ix2 n ⟨d.val, hd⟩) fun b => ?_
  match b with
  | ⟨0, _⟩ => rfl
  | ⟨1, _⟩ => rfl

/-- The same read at a column of the second block: the second block, 128 columns to the left. -/
private theorem concat_cols_right {α : Type} (x₁ x₂ : (⟨2, ![128, 128]⟩ : Shape).Idx → α)
    (h : Shape.Concatenates [(⟨2, ![128, 128]⟩ : Shape), ⟨2, ![128, 128]⟩] ⟨2, ![128, 256]⟩ 1)
    (n : Fin 128) (d : Fin 256) (hd : ¬ d.val < 128) :
    concatenate (⟨2, ![128, 256]⟩ : Shape) 1 [⟨_, x₁⟩, ⟨_, x₂⟩] h (ix2 n d)
      = x₂ (ix2 n ⟨d.val - 128, by have := d.isLt; omega⟩) := by
  refine concatenate_pair_apply_right 1 x₁ x₂ h (ix2 n d) rfl rfl
    (ix2 n ⟨d.val - 128, by have := d.isLt; omega⟩) (fun b hb => ?_) ?_
  · match b with
    | ⟨0, _⟩ => rfl
    | ⟨1, _⟩ => exact absurd rfl hb
  · show (d.val - 128) + 128 = d.val
    omega

/-- The stored block at node `n`, output feature `k`: the sum over the 256 columns `d` of the joined row — the node's
    feature `d` for `d < 128`, the aggregated message `d - 128` otherwise — times the update weight at (`d`, `k`), plus
    the bias at `k`. -/
theorem pay4_apply (v0 : Vec Ideal S1x128x128 .f32) (v16 : FVec Ideal S128x128 .f32) (v19 : Vec Ideal S256x128 .f32)
    (v22 : Vec Ideal S128 .f32) (u : Fin 1) (n k : Fin 128) :
    k0_pay4 v0 v16 v19 v22 (ix3 u n k)
      = (∑ d : Fin 256, (if hd : d.val < 128 then v0 (ix3 (0 : Fin 1) n ⟨d.val, hd⟩)
            else v16 (ix2 n ⟨d.val - 128, by have := d.isLt; omega⟩)) * v19 (ix2 d k)) + v22 (ix1 k) := by
  have e : dot_S128x256_S256x128_S128x128_1_0_0_1_n_n = DotDims.plain 128 256 128 := rfl
  unfold k0_pay4 k0_pay1
  -- the stored block at (u, n, k) is the 128×128 sum at (n, k): the product's entry plus the bias row's entry
  refine (shapeCast_ab_1ab_apply _ _ u n k).trans ?_
  rw [addf_apply]
  refine congrArg₂ (· + ·) ?_ ?_
  · -- the product into the zero accumulator is the sum over the 256 joined columns
    rw [e]
    refine (LibPlainMatmul.matmul_plain_zero_apply none _ _ n k).trans ?_
    refine Finset.sum_congr rfl fun d _ => ?_
    rw [truncf_apply, truncf_apply, shapeCast_self]
    refine congrArg₂ (· * ·) ?_ rfl
    -- the joined row at column d: the node's own features left of column 128, the aggregated messages from there on
    by_cases hd : d.val < 128
    · rw [dif_pos hd]
      exact (concat_cols_left _ _ _ n d hd).trans (shapeCast_1ab_ab_apply v0 _ n ⟨d.val, hd⟩)
    · rw [dif_neg hd]
      exact concat_cols_right _ _ _ n d hd
  · -- the bias vector made a row and copied down the 128 rows reads the bias at column k
    exact (broadcastTo_1b_ab_apply _ _ n k).trans (shapeCast_a_1a_apply v22 _ 0 k)

end Cert.Mpnn.Update

end
-- ==== Proof.KernelValue.lean ====
/-
  What the kernel leaves in its output block at a grid point: the layer of Spec.lean at that point's batch.

  The body's one store writes the update step of the node features and the loop's final accumulator. The accumulator
  starts at zero; trip n adds the masked messages of senders 16n … 16n+15 (read through the staged blocks at the
  trip's offset), so after the eight trips it holds, at (receiver j, feature k), the sum of the messages of all 128
  senders. The staged weight blocks are the host's transposes of the weight matrices, and rows 0…127, 128…255,
  256…383 of the transposed message weights are the three column blocks of the layer's definition.
-/
import proofs.«162373_j4140348474008_1_alg».proof.Proof.Gen.KernelIdeal.Frame
import proofs.«162373_j4140348474008_1_alg».proof.Proof.Spec
import proofs.«162373_j4140348474008_1_alg».proof.Proof.Algebra
import proofs.«162373_j4140348474008_1_alg».proof.Proof.Blocks
import proofs.«162373_j4140348474008_1_alg».proof.Proof.TripPayload
import proofs.«162373_j4140348474008_1_alg».proof.Proof.UpdatePayload
import Idealize.ShloMosaic.PureOps.Ideal.Laws
import Idealize.ShloMosaic.Lib.ValueIdx
import Idealize.ShloMosaic.Lib.Pipeline.Value

set_option maxRecDepth 16384

noncomputable section

open scoped BigOperators

namespace Cert.Mpnn.KernelValue

open Idealize.ShloMosaic Idealize.ShloMosaic.ValueIdx Idealize.ShloMosaic.TcCoe Idealize.SL.Sem
open Cert.KernelIdeal Cert.KernelIdeal.Gen Cert.Mpnn.Blocks

/-! ## The body on any staging buffers -/

/-- The loop makes eight trips. -/
theorem trips_eq : k0_t1_loop.trips = 8 := by decide +kernel

/-- Trip `n` as an index of the loop. -/
abbrev tripIx (n : ℕ) (hn : n < 8) : Fin k0_t1_loop.trips := ⟨n, by rw [trips_eq]; exact hn⟩

/-- Sender `s` of trip `n`'s chunk of sixteen. -/
abbrev sender (n : ℕ) (hn : n < 8) (s : Fin 16) : Fin 128 := ⟨16 * n + s.val, by have := s.isLt; omega⟩

/-- The three 128-row blocks the body loads from the staged (transposed) message weights. -/
def wBlk0 (x3 : Vec Ideal S384x128 .f32) : Vec Ideal S128x128 .f32 :=
  View.ld x3 (Rect.unit (s := S384x128) ![0, 0] S128x128.size inb_S384x128_S128x128_0_0)
def wBlk1 (x3 : Vec Ideal S384x128 .f32) : Vec Ideal S128x128 .f32 :=
  View.ld x3 (Rect.unit (s := S384x128) ![128, 0] S128x128.size inb_S384x128_S128x128_128_0)
def wBlk2 (x3 : Vec Ideal S384x128 .f32) : Vec Ideal S128x128 .f32 :=
  View.ld x3 (Rect.unit (s := S384x128) ![256, 0] S128x128.size inb_S384x128_S128x128_256_0)

/-- The chunks trip `k` loads: sixteen senders' edge rows, feature rows and adjacency rows. -/
def eChunk (x0 : Vec Ideal S1x128x128x128 .f32) (k : Fin k0_t1_loop.trips) : Vec Ideal S1x16x128x128 .f32 :=
  View.ld x0 (Rect.unit (s := S1x128x128x128) (k0_off1 k) S1x16x128x128.size (k0_off1_inb k))
def rowChunk (x : Vec Ideal S1x128x128 .f32) (k : Fin k0_t1_loop.trips) : Vec Ideal S1x16x128 .f32 :=
  View.ld x (Rect.unit (s := S1x128x128) (k0_off2 k) S1x16x128.size (k0_off2_inb k))

/-- The accumulator before trip `n`. -/
abbrev accAt (c : Dev nD) (i : grid0.Coords) (arg1 : Memref sig .tc .vmem S1x128x128x128 .f32) (harg1 : arg1.IsWhole) (arg2 : Memref sig .tc .vmem S1x128x128 .f32) (harg2 : arg2.IsWhole) (arg3 : Memref sig .tc .vmem S1x128x128 .f32) (harg3 : arg3.IsWhole) (arg4 : Memref sig .tc .vmem S384x128 .f32) (harg4 : arg4.IsWhole) (arg5 : Memref sig .tc .vmem S128 .f32) (harg5 : arg5.IsWhole) (arg6 : Memref sig .tc .vmem S256x128 .f32) (harg6 : arg6.IsWhole) (arg7 : Memref sig .tc .vmem S128 .f32) (harg7 : arg7.IsWhole) (arg8 : Memref sig .tc .vmem S1x128x128 .f32) (harg8 : arg8.IsWhole) (x0 : Vec Ideal S1x128x128x128 .f32) (x1 x2 : Vec Ideal S1x128x128 .f32) (x3 : Vec Ideal S384x128 .f32) (x4 : Vec Ideal S128 .f32) (n : ℕ) : FVec Ideal S128x128 .f32 :=
  st_k0_t1 (F := Ideal) Variants.none c none i arg1 harg1 arg2 harg2 arg3 harg3 arg4 harg4 arg5 harg5 arg6 harg6 arg7 harg7 arg8 harg8
    x2 (wBlk0 x3) (wBlk1 x3) (wBlk2 x3) x4 (harg1.unread x0) (harg2.unread x1) (harg3.unread x2) (k0_pay2 (F := Ideal)) n

/-- The block the body stores: the update step of the node features and the accumulator after the last trip. -/
theorem stored (c : Dev nD) (i : grid0.Coords) (arg1 : Memref sig .tc .vmem S1x128x128x128 .f32) (harg1 : arg1.IsWhole) (arg2 : Memref sig .tc .vmem S1x128x128 .f32) (harg2 : arg2.IsWhole) (arg3 : Memref sig .tc .vmem S1x128x128 .f32) (harg3 : arg3.IsWhole) (arg4 : Memref sig .tc .vmem S384x128 .f32) (harg4 : arg4.IsWhole) (arg5 : Memref sig .tc .vmem S128 .f32) (harg5 : arg5.IsWhole) (arg6 : Memref sig .tc .vmem S256x128 .f32) (harg6 : arg6.IsWhole) (arg7 : Memref sig .tc .vmem S128 .f32) (harg7 : arg7.IsWhole) (arg8 : Memref sig .tc .vmem S1x128x128 .f32) (harg8 : arg8.IsWhole) (x0 : Vec Ideal S1x128x128x128 .f32) (x1 x2 : Vec Ideal S1x128x128 .f32) (x3 : Vec Ideal S384x128 .f32) (x4 : Vec Ideal S128 .f32) (x5 : Vec Ideal S256x128 .f32) (x6 : Vec Ideal S128 .f32) :
    out0_A_7 (F := Ideal) c i arg1 harg1 arg2 harg2 arg3 harg3 arg4 harg4 arg5 harg5 arg6 harg6 arg7 harg7 arg8 harg8 x0 x1 x2 x3 x4 x5 x6
      = k0_pay4 x2 (accAt c i arg1 harg1 arg2 harg2 arg3 harg3 arg4 harg4 arg5 harg5 arg6 harg6 arg7 harg7 arg8 harg8 x0 x1 x2 x3 x4 k0_t1_loop.trips) x5 x6 := by
  have hz3 : (![0, 0, 0] : Fin 3 → Nat) = fun _ => 0 := by funext a; fin_cases a <;> rfl
  have hz2 : (![0, 0] : Fin 2 → Nat) = fun _ => 0 := by funext a; fin_cases a <;> rfl
  have hz1 : (![0] : Fin 1 → Nat) = fun _ => 0 := by funext a; fin_cases a; rfl
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  rw [View.canon_unit_zero hz3]
  simp only [View.readAt_eq_ld, harg1.read_unread, harg2.read_unread, harg3.read_unread, harg4.read_unread, harg5.read_unread, harg6.read_unread, harg7.read_unread,
    View.ld_unit_zero (S := S1x128x128) hz3, View.ld_unit_zero (S := S256x128) hz2, View.ld_unit_zero (S := S128) hz1] <;> rfl

/-- What one trip yields: the trip's payload of the carried value and the three chunks it loads. -/
theorem trip_yield (c : Dev nD) (i : grid0.Coords) (arg1 : Memref sig .tc .vmem S1x128x128x128 .f32) (harg1 : arg1.IsWhole) (arg2 : Memref sig .tc .vmem S1x128x128 .f32) (harg2 : arg2.IsWhole) (arg3 : Memref sig .tc .vmem S1x128x128 .f32) (harg3 : arg3.IsWhole) (arg4 : Memref sig .tc .vmem S384x128 .f32) (harg4 : arg4.IsWhole) (arg5 : Memref sig .tc .vmem S128 .f32) (harg5 : arg5.IsWhole) (arg6 : Memref sig .tc .vmem S256x128 .f32) (harg6 : arg6.IsWhole) (arg7 : Memref sig .tc .vmem S128 .f32) (harg7 : arg7.IsWhole) (arg8 : Memref sig .tc .vmem S1x128x128 .f32) (harg8 : arg8.IsWhole) (x0 : Vec Ideal S1x128x128x128 .f32) (x1 x2 : Vec Ideal S1x128x128 .f32) (x3 : Vec Ideal S384x128 .f32) (x4 : Vec Ideal S128 .f32) (v0 : Vec Ideal S1x128x128 .f32) (v3 v6 v9 : Vec Ideal S128x128 .f32) (v13 : Vec Ideal S128 .f32)
    (k : Fin k0_t1_loop.trips) (acc : FVec Ideal S128x128 .f32) :
    tripR_k0_t1 (F := Ideal) Variants.none c none i arg1 harg1 arg2 harg2 arg3 harg3 arg4 harg4 arg5 harg5 arg6 harg6 arg7 harg7 arg8 harg8 v0 v3 v6 v9 v13 (harg1.unread x0) (harg2.unread x1) (harg3.unread x2) k acc
      = k0_pay3 v0 v3 v6 v9 v13 acc (eChunk x0 k) (rowChunk x2 k) (rowChunk x1 k) := by
  unfold tripR_k0_t1 trip_k0_t1
  dsimp only
  simp only [View.readAt_eq_ld, harg1.read_unread, harg2.read_unread, harg3.read_unread] <;> rfl

/-- Before the first trip the accumulator is the zero splat. -/
theorem accAt_zero (c : Dev nD) (i : grid0.Coords) (arg1 : Memref sig .tc .vmem S1x128x128x128 .f32) (harg1 : arg1.IsWhole) (arg2 : Memref sig .tc .vmem S1x128x128 .f32) (harg2 : arg2.IsWhole) (arg3 : Memref sig .tc .vmem S1x128x128 .f32) (harg3 : arg3.IsWhole) (arg4 : Memref sig .tc .vmem S384x128 .f32) (harg4 : arg4.IsWhole) (arg5 : Memref sig .tc .vmem S128 .f32) (harg5 : arg5.IsWhole) (arg6 : Memref sig .tc .vmem S256x128 .f32) (harg6 : arg6.IsWhole) (arg7 : Memref sig .tc .vmem S128 .f32) (harg7 : arg7.IsWhole) (arg8 : Memref sig .tc .vmem S1x128x128 .f32) (harg8 : arg8.IsWhole) (x0 : Vec Ideal S1x128x128x128 .f32) (x1 x2 : Vec Ideal S1x128x128 .f32) (x3 : Vec Ideal S384x128 .f32) (x4 : Vec Ideal S128 .f32) (j k : Fin 128) :
    accAt c i arg1 harg1 arg2 harg2 arg3 harg3 arg4 harg4 arg5 harg5 arg6 harg6 arg7 harg7 arg8 harg8 x0 x1 x2 x3 x4 0 (ix2 j k) = 0 := by
  show k0_pay2 (F := Ideal) (ix2 j k) = 0
  unfold k0_pay2
  show Ideal.ofBits .f32 0x00000000#32 = 0
  exact Ideal.ofBits_zero_f32

/-- The accumulator after trip `n` is the trip's payload of the accumulator before it. -/
theorem accAt_succ (c : Dev nD) (i : grid0.Coords) (arg1 : Memref sig .tc .vmem S1x128x128x128 .f32) (harg1 : arg1.IsWhole) (arg2 : Memref sig .tc .vmem S1x128x128 .f32) (harg2 : arg2.IsWhole) (arg3 : Memref sig .tc .vmem S1x128x128 .f32) (harg3 : arg3.IsWhole) (arg4 : Memref sig .tc .vmem S384x128 .f32) (harg4 : arg4.IsWhole) (arg5 : Memref sig .tc .vmem S128 .f32) (harg5 : arg5.IsWhole) (arg6 : Memref sig .tc .vmem S256x128 .f32) (harg6 : arg6.IsWhole) (arg7 : Memref sig .tc .vmem S128 .f32) (harg7 : arg7.IsWhole) (arg8 : Memref sig .tc .vmem S1x128x128 .f32) (harg8 : arg8.IsWhole) (x0 : Vec Ideal S1x128x128x128 .f32) (x1 x2 : Vec Ideal S1x128x128 .f32) (x3 : Vec Ideal S384x128 .f32) (x4 : Vec Ideal S128 .f32) (n : ℕ) (hn : n < 8) :
    accAt c i arg1 harg1 arg2 harg2 arg3 harg3 arg4 harg4 arg5 harg5 arg6 harg6 arg7 harg7 arg8 harg8 x0 x1 x2 x3 x4 (n + 1)
      = k0_pay3 x2 (wBlk0 x3) (wBlk1 x3) (wBlk2 x3) x4 (accAt c i arg1 harg1 arg2 harg2 arg3 harg3 arg4 harg4 arg5 harg5 arg6 harg6 arg7 harg7 arg8 harg8 x0 x1 x2 x3 x4 n)
          (eChunk x0 (tripIx n hn)) (rowChunk x2 (tripIx n hn)) (rowChunk x1 (tripIx n hn)) := by
  have h := st_k0_t1_succ (F := Ideal) Variants.none c none i arg1 harg1 arg2 harg2 arg3 harg3 arg4 harg4 arg5 harg5 arg6 harg6 arg7 harg7 arg8 harg8
    x2 (wBlk0 x3) (wBlk1 x3) (wBlk2 x3) x4 (harg1.unread x0) (harg2.unread x1) (harg3.unread x2) (k0_pay2 (F := Ideal)) (tripIx n hn)
  exact h.trans (trip_yield c i arg1 harg1 arg2 harg2 arg3 harg3 arg4 harg4 arg5 harg5 arg6 harg6 arg7 harg7 arg8 harg8 x0 x1 x2 x3 x4 x2 (wBlk0 x3) (wBlk1 x3) (wBlk2 x3) x4 (tripIx n hn) _)

/-! ## The loaded chunks and weight blocks at an index -/

theorem eChunk_apply (x0 : Vec Ideal S1x128x128x128 .f32) (n : ℕ) (hn : n < 8) (u : Fin 1) (s : Fin 16) (j d : Fin 128) :
    eChunk x0 (tripIx n hn) (ix4 u s j d) = x0 (ix4 (0 : Fin 1) (sender n hn s) j d) := by
  show x0 _ = x0 _
  congr 1
  funext a
  apply Fin.ext
  have hu := u.isLt
  match a with
  | ⟨0, _⟩ => show (k0_off1 (tripIx n hn)) 0 + 1 * u.val = 0; rw [k0_off1_eq]; show 0 + 1 * u.val = 0; omega
  | ⟨1, _⟩ => show (k0_off1 (tripIx n hn)) 1 + 1 * s.val = 16 * n + s.val; rw [k0_off1_eq]; show 16 * n + 1 * s.val = 16 * n + s.val; omega
  | ⟨2, _⟩ => show (k0_off1 (tripIx n hn)) 2 + 1 * j.val = j.val; rw [k0_off1_eq]; show 0 + 1 * j.val = j.val; omega
  | ⟨3, _⟩ => show (k0_off1 (tripIx n hn)) 3 + 1 * d.val = d.val; rw [k0_off1_eq]; show 0 + 1 * d.val = d.val; omega

theorem rowChunk_apply (x : Vec Ideal S1x128x128 .f32) (n : ℕ) (hn : n < 8) (u : Fin 1) (s : Fin 16) (d : Fin 128) :
    rowChunk x (tripIx n hn) (ix3 u s d) = x (ix3 (0 : Fin 1) (sender n hn s) d) := by
  show x _ = x _
  congr 1
  funext a
  apply Fin.ext
  have hu := u.isLt
  match a with
  | ⟨0, _⟩ => show (k0_off2 (tripIx n hn)) 0 + 1 * u.val = 0; rw [k0_off2_eq]; show 0 + 1 * u.val = 0; omega
  | ⟨1, _⟩ => show (k0_off2 (tripIx n hn)) 1 + 1 * s.val = 16 * n + s.val; rw [k0_off2_eq]; show 16 * n + 1 * s.val = 16 * n + s.val; omega
  | ⟨2, _⟩ => show (k0_off2 (tripIx n hn)) 2 + 1 * d.val = d.val; rw [k0_off2_eq]; show 0 + 1 * d.val = d.val; omega

theorem wBlk0_apply (x3 : Vec Ideal S384x128 .f32) (d k : Fin 128) : wBlk0 x3 (ix2 d k) = x3 (ix2 (wcol 0 d) k) := by
  show x3 _ = x3 _
  congr 1
  funext a
  apply Fin.ext
  match a with
  | ⟨0, _⟩ => show 0 + 1 * d.val = 128 * 0 + d.val; omega
  | ⟨1, _⟩ => show 0 + 1 * k.val = k.val; omega

theorem wBlk1_apply (x3 : Vec Ideal S384x128 .f32) (d k : Fin 128) : wBlk1 x3 (ix2 d k) = x3 (ix2 (wcol 1 d) k) := by
  show x3 _ = x3 _
  congr 1
  funext a
  apply Fin.ext
  match a with
  | ⟨0, _⟩ => show 128 + 1 * d.val = 128 * 1 + d.val; omega
  | ⟨1, _⟩ => show 0 + 1 * k.val = k.val; omega

theorem wBlk2_apply (x3 : Vec Ideal S384x128 .f32) (d k : Fin 128) : wBlk2 x3 (ix2 d k) = x3 (ix2 (wcol 2 d) k) := by
  show x3 _ = x3 _
  congr 1
  funext a
  apply Fin.ext
  match a with
  | ⟨0, _⟩ => show 256 + 1 * d.val = 128 * 2 + d.val; omega
  | ⟨1, _⟩ => show 0 + 1 * k.val = k.val; omega

/-- One trip at an entry: the accumulator gains the masked messages of the trip's sixteen senders. -/
theorem accAt_succ_apply (c : Dev nD) (i : grid0.Coords) (arg1 : Memref sig .tc .vmem S1x128x128x128 .f32) (harg1 : arg1.IsWhole) (arg2 : Memref sig .tc .vmem S1x128x128 .f32) (harg2 : arg2.IsWhole) (arg3 : Memref sig .tc .vmem S1x128x128 .f32) (harg3 : arg3.IsWhole) (arg4 : Memref sig .tc .vmem S384x128 .f32) (harg4 : arg4.IsWhole) (arg5 : Memref sig .tc .vmem S128 .f32) (harg5 : arg5.IsWhole) (arg6 : Memref sig .tc .vmem S256x128 .f32) (harg6 : arg6.IsWhole) (arg7 : Memref sig .tc .vmem S128 .f32) (harg7 : arg7.IsWhole) (arg8 : Memref sig .tc .vmem S1x128x128 .f32) (harg8 : arg8.IsWhole) (x0 : Vec Ideal S1x128x128x128 .f32) (x1 x2 : Vec Ideal S1x128x128 .f32) (x3 : Vec Ideal S384x128 .f32) (x4 : Vec Ideal S128 .f32) (n : ℕ) (hn : n < 8) (j k : Fin 128) :
    accAt c i arg1 harg1 arg2 harg2 arg3 harg3 arg4 harg4 arg5 harg5 arg6 harg6 arg7 harg7 arg8 harg8 x0 x1 x2 x3 x4 (n + 1) (ix2 j k)
      = accAt c i arg1 harg1 arg2 harg2 arg3 harg3 arg4 harg4 arg5 harg5 arg6 harg6 arg7 harg7 arg8 harg8 x0 x1 x2 x3 x4 n (ix2 j k) + ∑ s : Fin 16,
          ((((∑ d : Fin 128, x0 (ix4 (0 : Fin 1) (sender n hn s) j d) * x3 (ix2 (wcol 2 d) k))
              + ∑ d : Fin 128, x2 (ix3 (0 : Fin 1) (sender n hn s) d) * x3 (ix2 (wcol 0 d) k))
            + ∑ d : Fin 128, x2 (ix3 (0 : Fin 1) j d) * x3 (ix2 (wcol 1 d) k))
           + x4 (ix1 k)) * x1 (ix3 (0 : Fin 1) (sender n hn s) j) := by
  rw [accAt_succ c i arg1 harg1 arg2 harg2 arg3 harg3 arg4 harg4 arg5 harg5 arg6 harg6 arg7 harg7 arg8 harg8 x0 x1 x2 x3 x4 n hn, Cert.Mpnn.Trip.pay3_apply]
  simp only [eChunk_apply, rowChunk_apply, wBlk0_apply, wBlk1_apply, wBlk2_apply]

/-! ## At a grid point -/

section Point

variable (m : (ℓ : Loc nD τ sig) → Buf (Elt Ideal) ℓ)

/-- The accumulator before trip `n` of the body at grid point `t`. -/
abbrev accPt (c : Dev nD) (t : Fin cfg0.N) (n : ℕ) : FVec Ideal S128x128 .f32 :=
  accAt c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (eBlk m c t) (adjBlk m c t) (hBlk m c t) (wmBlk m c t) (bmBlk m c t) n

/-- The output block after the body at point `t`: the update step of the point's node features and final accumulator. -/
theorem outsAt_eq (c : Dev nD) (t : Fin cfg0.N) :
    outsAt0 (F := Ideal) m c t = k0_pay4 (hBlk m c t) (accPt m c t k0_t1_loop.trips) (wuBlk m c t) (buBlk m c t) := by
  unfold outsAt0
  exact stored c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (eBlk m c t) (adjBlk m c t) (hBlk m c t) (wmBlk m c t) (bmBlk m c t) (wuBlk m c t) (buBlk m c t)

/-- One trip at point `t`, in the argument arrays: the accumulator gains the messages of the chunk's sixteen senders
    (the kernel adds the edge term first; the layer's order is the same sum). -/
theorem accPt_succ_apply (c : Dev nD) (t : Fin cfg0.N) (n : ℕ) (hn : n < 8) (j k : Fin 128) :
    accPt m c t (n + 1) (ix2 j k)
      = accPt m c t n (ix2 j k) + ∑ s : Fin 16,
          Cert.Mpnn.msg (hA m c) (adjA m c) (eA m c) (WmA m c) (bmA m c) (batch t) (sender n hn s) j k := by
  refine (accAt_succ_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (eBlk m c t) (adjBlk m c t) (hBlk m c t) (wmBlk m c t) (bmBlk m c t) n hn j k).trans ?_
  refine congrArg (accPt m c t n (ix2 j k) + ·) ?_
  refine Finset.sum_congr rfl fun s _ => ?_
  simp only [eBlk_apply, hBlk_apply, adjBlk_apply, wmBlk_apply, bmBlk_apply]
  unfold Cert.Mpnn.msg Cert.Mpnn.nodeTerm Cert.Mpnn.edgeTerm
  rw [Cert.Mpnn.Algebra.four_terms]

/-- After the eight trips the accumulator holds the messages summed over all senders. -/
theorem accPt_final (c : Dev nD) (t : Fin cfg0.N) (j k : Fin 128) :
    accPt m c t k0_t1_loop.trips (ix2 j k)
      = Cert.Mpnn.agg (hA m c) (adjA m c) (eA m c) (WmA m c) (bmA m c) (batch t) j k := by
  rw [trips_eq]
  unfold Cert.Mpnn.agg
  exact Cert.Mpnn.Algebra.chunked_sum
    (fun i => Cert.Mpnn.msg (hA m c) (adjA m c) (eA m c) (WmA m c) (bmA m c) (batch t) i j k)
    (fun n => accPt m c t n (ix2 j k))
    (accAt_zero c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (eBlk m c t) (adjBlk m c t) (hBlk m c t) (wmBlk m c t) (bmBlk m c t) j k)
    (fun n hn => accPt_succ_apply m c t n hn j k)

/-- After the body at point `t` the output block holds, at node `n` and output feature `k`, the layer's result for
    batch `t`. -/
theorem outs_apply (c : Dev nD) (t : Fin cfg0.N) (u : Fin 1) (n k : Fin 128) :
    outsAt0 (F := Ideal) m c t (ix3 u n k)
      = Cert.Mpnn.out (hA m c) (adjA m c) (eA m c) (WmA m c) (bmA m c) (WuA m c) (buA m c) (batch t) n k := by
  rw [outsAt_eq, Cert.Mpnn.Update.pay4_apply]
  unfold Cert.Mpnn.out
  congr 1
  · refine Finset.sum_congr rfl fun d _ => ?_
    rw [wuBlk_apply]
    congr 1
    unfold Cert.Mpnn.cat
    by_cases hd : d.val < 128
    · rw [dif_pos hd, dif_pos hd, hBlk_apply]
    · rw [dif_neg hd, dif_neg hd, accPt_final]
  · exact buBlk_apply m c t k

end Point

end Cert.Mpnn.KernelValue

end
-- ==== Proof.Final.lean ====
/-
  From the blocks to the whole result array: every grid point writes back its batch of the layer, the sixteen blocks
  tile the array, so after the run the result array is the layer of the argument arrays.
-/
import proofs.«162373_j4140348474008_1_alg».proof.Proof.Gen.KernelIdeal.Value
import proofs.«162373_j4140348474008_1_alg».proof.Proof.KernelValue

noncomputable section

namespace Cert.Mpnn.Final

open Idealize.ShloMosaic Idealize.ShloMosaic.ValueIdx Idealize.ShloMosaic.TcCoe Idealize.SL.Sem
open Idealize.ShloMosaic.Pipeline (Dat)
open Cert.KernelIdeal Cert.KernelIdeal.Gen Cert.Mpnn.Blocks

variable (m : (ℓ : Loc nD τ sig) → Buf (Elt Ideal) ℓ) (ρ : Dev nD → PrngReg)

/-- The layer of core `c`'s argument arrays. -/
abbrev result (c : Dev nD) : Vec Ideal S16x128x128 .f32 :=
  Cert.Mpnn.layer (hA m c) (adjA m c) (eA m c) (WmA m c) (bmA m c) (WuA m c) (buA m c)

/-- The block index of the result window at grid point `t`: the point's number along the batch axis, zero along the
    node and feature axes. -/
theorem idx7 : ∀ t : Fin cfg0.N, win0_7.index t (0 : Fin 3) = t.val
    ∧ win0_7.index t (1 : Fin 3) = 0
    ∧ win0_7.index t (2 : Fin 3) = 0 :=
  (by decide +kernel : ∀ t : Fin grid0.N, _)

/-- Where the block of point `t` puts its coordinate (u, n, k) in the result array: a block coordinate sits at block
    index × block size + the coordinate, which on the batch axis (block size 1, u = 0) is the point's batch, and on the
    node and feature axes (block index 0) is the coordinate itself. -/
theorem emb_ix3 (t : Fin cfg0.N) (u : Fin 1) (n k : Fin 128) :
    ((cfg0.win 7).blk t).view.emb (ix3 u n k) = ix3 (batch t) n k := by
  obtain ⟨e0, e1, e2⟩ := idx7 t
  have hu : u.val < 1 := u.isLt
  funext a; apply Fin.ext
  match a with
  | ⟨0, _⟩ => show win0_7.index t (0 : Fin 3) * 1 + 1 * u.val = t.val; omega
  | ⟨1, _⟩ => show win0_7.index t (1 : Fin 3) * 128 + 1 * n.val = n.val; omega
  | ⟨2, _⟩ => show win0_7.index t (2 : Fin 3) * 128 + 1 * k.val = k.val; omega

/-- What point `t` writes back is block `t` of the layer: the block is not cut (it lies inside the array), so what is
    written is the whole output block, which holds the layer's result for the point's batch; and the block's view reads
    the layer at that same batch. -/
theorem flushed_eq (c : Dev nD) (t : Fin cfg0.N) :
    (dats m 0 c).flushed 7 t = ((cfg0.win 7).blk t).view.read (Elt Ideal) (result m c) := by
  rw [Value.flushed7]
  funext y
  show outsAt0 (F := Ideal) m c t y = result m c (((cfg0.win 7).blk t).view.emb y)
  obtain ⟨u, n, k, rfl⟩ : ∃ (u : Fin 1) (n k : Fin 128), y = ix3 u n k :=
    ⟨y 0, y 1, y 2, eq_ix3 (n0 := 1) (n1 := 128) (n2 := 128) y⟩
  rw [KernelValue.outs_apply, emb_ix3]
  exact (Cert.Mpnn.layer_apply _ _ _ _ _ _ _ (batch t) n k).symm

/-- An index of the result array is in point `t`'s block iff each coordinate is in the block's range on its axis. -/
theorem mem_blk (t : Fin cfg0.N) (i : S16x128x128.Idx) :
    i ∈ ((cfg0.win 7).blk t).view.set ↔ ∀ a : Fin 3, win0_7.index t a * S1x128x128.size a ≤ (i a).val
      ∧ (i a).val < win0_7.index t a * S1x128x128.size a + S1x128x128.size a := by
  show i ∈ ((View.whole main_v2).slice (win0_7.rect t)).set ↔ _
  rw [View.set_slice_whole, Rect.mem_set_unit]
  exact Iff.rfl

/-- The sixteen blocks tile the array: the index (b, n, k) lies in the block of the grid point numbered `b`. -/
theorem cover (i : S16x128x128.Idx) :
    ∃ t : Fin cfg0.N, (cfg0.win 7).flush t = true ∧ i ∈ ((cfg0.win 7).blk t).view.set := by
  have hN : cfg0.N = 16 := N_0
  have hi0 : (i 0).val < 16 := (i 0).isLt
  have hi1 : (i 1).val < 128 := (i 1).isLt
  have hi2 : (i 2).val < 128 := (i 2).isLt
  have ht : (i 0).val < cfg0.N := by rw [hN]; exact hi0
  obtain ⟨e0, e1, e2⟩ := idx7 ⟨(i 0).val, ht⟩
  have e0' : win0_7.index ⟨(i 0).val, ht⟩ (0 : Fin 3) = (i 0).val := e0
  refine ⟨⟨(i 0).val, ht⟩, flush0_7 _, ?_⟩
  rw [mem_blk]
  intro a
  match a with
  | ⟨0, _⟩ =>
    show win0_7.index ⟨(i 0).val, ht⟩ (0 : Fin 3) * 1 ≤ (i 0).val
      ∧ (i 0).val < win0_7.index ⟨(i 0).val, ht⟩ (0 : Fin 3) * 1 + 1
    omega
  | ⟨1, _⟩ =>
    show win0_7.index ⟨(i 0).val, ht⟩ (1 : Fin 3) * 128 ≤ (i 1).val
      ∧ (i 1).val < win0_7.index ⟨(i 0).val, ht⟩ (1 : Fin 3) * 128 + 128
    omega
  | ⟨2, _⟩ =>
    show win0_7.index ⟨(i 0).val, ht⟩ (2 : Fin 3) * 128 ≤ (i 2).val
      ∧ (i 2).val < win0_7.index ⟨(i 0).val, ht⟩ (2 : Fin 3) * 128 + 128
    omega

/-- So after the last grid point the result array holds the layer of the argument arrays. -/
theorem result_array (c : Dev nD) : (dats m 0 c).arrAt 7 cfg0.N = result m c :=
  (dats m 0 c).arrAt_eq_of_cover 7 (result m c) (fun t _ => flushed_eq m c t) cover

/-- The idealized kernel's run: it terminates without a fault, the result array is the layer of the argument arrays,
    and the argument arrays are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (result_array m c), (h c).2⟩) (Value.run_blocks m ρ)

end Cert.Mpnn.Final

end
-- ==== Proof.lean ====
/-
  A message-passing layer over 16 graphs of 128 nodes: a Pallas kernel against its jnp reference, equal as functions on
  the extended reals.

  The layer (Proof/Spec.lean): for sender i, receiver j and output feature k the message is the sum of the sender's
  features through the first 128-column block of the message weights, the receiver's through the second, the edge's
  through the third and a bias, times the adjacency entry; messages are summed over senders, joined to the node's own
  features in a 256-entry row, and sent through the update weights with a second bias.

  The reference computes exactly that, stage by stage (Proof/RefValue.lean over the generated reading of its run). The
  kernel works one graph per grid point on transposed weights, forms the edge term first, and sums the senders in
  eight chunks of sixteen inside a counted loop that carries the running total (Proof/KernelValue.lean: the body's one
  stored block and the loop's trips opened once; Proof/TripPayload.lean and Proof/UpdatePayload.lean: the two pure
  payloads at an entry; Proof/Blocks.lean: where each staged block sits in its array). Sums on the extended reals
  regroup and reorder freely (Proof/Algebra.lean), so no finiteness of the inputs is needed: the precondition is never
  opened. Proof/Final.lean carries the sixteen written-back blocks to the whole result array.

  The three frames are the generated certificates (the reference's is its generated run with the result dropped); the
  idealization rewrote nothing, so its claim is trivial.
-/
import proofs.«162373_j4140348474008_1_alg».proof.Defs
import proofs.«162373_j4140348474008_1_alg».proof.Proof.Gen.Kernel
import proofs.«162373_j4140348474008_1_alg».proof.Proof.Gen.Kernel.Skeleton
import proofs.«162373_j4140348474008_1_alg».proof.Proof.Gen.Kernel.Loops
import proofs.«162373_j4140348474008_1_alg».proof.Proof.Gen.Kernel.Launch
import proofs.«162373_j4140348474008_1_alg».proof.Proof.Gen.Kernel.Points
import proofs.«162373_j4140348474008_1_alg».proof.Proof.Gen.Kernel.Frame
import proofs.«162373_j4140348474008_1_alg».proof.Proof.Gen.KernelIdeal
import proofs.«162373_j4140348474008_1_alg».proof.Proof.Gen.KernelIdeal.Skeleton
import proofs.«162373_j4140348474008_1_alg».proof.Proof.Gen.KernelIdeal.Loops
import proofs.«162373_j4140348474008_1_alg».proof.Proof.Gen.KernelIdeal.Launch
import proofs.«162373_j4140348474008_1_alg».proof.Proof.Gen.KernelIdeal.Points
import proofs.«162373_j4140348474008_1_alg».proof.Proof.Gen.KernelIdeal.Frame
import proofs.«162373_j4140348474008_1_alg».proof.Proof.Gen.ReferenceIdeal
import proofs.«162373_j4140348474008_1_alg».proof.Proof.Gen.Pre_finite_inputs
import proofs.«162373_j4140348474008_1_alg».proof.Proof.Gen.KernelIdeal.Value
import proofs.«162373_j4140348474008_1_alg».proof.Proof.Gen.ReferenceIdeal.Run
import proofs.«162373_j4140348474008_1_alg».proof.Proof.Gen.ReferenceIdeal.Read
import proofs.«162373_j4140348474008_1_alg».proof.Proof.RefValue
import proofs.«162373_j4140348474008_1_alg».proof.Proof.Final
import Idealize.ShloMosaic.Adequacy
import Idealize.ShloMosaic.Init

noncomputable section

namespace Cert.Proof

open Idealize.ShloMosaic Idealize.SL.Sem

/-- Both idealized programs end with the layer of the (agreeing) argument arrays in their result arrays. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.Mpnn.Final.result m c, Cert.Mpnn.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.Mpnn.Ref.val_eq_layer,
    (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
